-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x768 : Shape := ⟨2, ![2, 768]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S2x768 32) (main_arg1 : IVec S2x768 32) (main_arg2 : IVec S2x768 32) (main_arg3 : IVec S2x768 32) (main_arg4 : IVec S2x768 32) (main_arg5 : IVec S2x768 32) (main_arg6 : FVec F S139x128 .f32) : IVec S_ 1 :=
  let main_v0 : FVec F S139x128 .f32 := Host.absf main_arg6
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S2x768 : Shape := ⟨2, ![2, 768]⟩
abbrev S139x128 : Shape := ⟨2, ![139, 128]⟩
abbrev S2x768x1 : Shape := ⟨3, ![2, 768, 1]⟩
abbrev S2x1x768 : Shape := ⟨3, ![2, 1, 768]⟩
abbrev S2x768x768x128 : Shape := ⟨4, ![2, 768, 768, 128]⟩
abbrev S1x64x1 : Shape := ⟨3, ![1, 64, 1]⟩
abbrev S1x1x128 : Shape := ⟨3, ![1, 1, 128]⟩
abbrev S1x64x128x128 : Shape := ⟨4, ![1, 64, 128, 128]⟩
abbrev S64x1 : Shape := ⟨2, ![64, 1]⟩
abbrev S1x128 : Shape := ⟨2, ![1, 128]⟩
abbrev S64x128 : Shape := ⟨2, ![64, 128]⟩
abbrev S64x128x66 : Shape := ⟨3, ![64, 128, 66]⟩
abbrev S64x128x1 : Shape := ⟨3, ![64, 128, 1]⟩
abbrev S8192x66 : Shape := ⟨2, ![8192, 66]⟩
abbrev S66x128 : Shape := ⟨2, ![66, 128]⟩
abbrev S8192x128 : Shape := ⟨2, ![8192, 128]⟩
abbrev S64x128x128 : Shape := ⟨3, ![64, 128, 128]⟩
abbrev S64x128x6 : Shape := ⟨3, ![64, 128, 6]⟩
abbrev S8192x6 : Shape := ⟨2, ![8192, 6]⟩
abbrev S6x128 : Shape := ⟨2, ![6, 128]⟩
abbrev S128 : Shape := ⟨1, ![128]⟩

abbrev nBuf : Space → Nat
  | .hbm => 20
  | .vmem => 25
  | .smem => 0
  | _ => 0

abbrev bufTy : (tb : Table) → Fin (tcTables nBuf tb) → BufTy
  | .hbm, ⟨0, _⟩ => ⟨S2x768, .i32⟩
  | .hbm, ⟨1, _⟩ => ⟨S2x768, .i32⟩
  | .hbm, ⟨2, _⟩ => ⟨S2x768, .i32⟩
  | .hbm, ⟨3, _⟩ => ⟨S2x768, .i32⟩
  | .hbm, ⟨4, _⟩ => ⟨S2x768, .i32⟩
  | .hbm, ⟨5, _⟩ => ⟨S2x768, .i32⟩
  | .hbm, ⟨6, _⟩ => ⟨S139x128, .f32⟩
  | .hbm, ⟨7, _⟩ => ⟨S2x768x1, .i32⟩
  | .hbm, ⟨8, _⟩ => ⟨S2x1x768, .i32⟩
  | .hbm, ⟨9, _⟩ => ⟨S2x768x1, .i32⟩
  | .hbm, ⟨10, _⟩ => ⟨S2x1x768, .i32⟩
  | .hbm, ⟨11, _⟩ => ⟨S2x768x1, .i32⟩
  | .hbm, ⟨12, _⟩ => ⟨S2x1x768, .i32⟩
  | .hbm, ⟨13, _⟩ => ⟨S2x768x1, .i32⟩
  | .hbm, ⟨14, _⟩ => ⟨S2x1x768, .i32⟩
  | .hbm, ⟨15, _⟩ => ⟨S2x768x1, .i32⟩
  | .hbm, ⟨16, _⟩ => ⟨S2x1x768, .i32⟩
  | .hbm, ⟨17, _⟩ => ⟨S2x768x1, .i32⟩
  | .hbm, ⟨18, _⟩ => ⟨S2x1x768, .i32⟩
  | .hbm, ⟨19, _⟩ => ⟨S2x768x768x128, .f32⟩
  | .local _ .vmem, ⟨0, _⟩ => ⟨S1x64x1, .i32⟩
  | .local _ .vmem, ⟨1, _⟩ => ⟨S1x64x1, .i32⟩
  | .local _ .vmem, ⟨2, _⟩ => ⟨S1x1x128, .i32⟩
  | .local _ .vmem, ⟨3, _⟩ => ⟨S1x1x128, .i32⟩
  | .local _ .vmem, ⟨4, _⟩ => ⟨S1x64x1, .i32⟩
  | .local _ .vmem, ⟨5, _⟩ => ⟨S1x64x1, .i32⟩
  | .local _ .vmem, ⟨6, _⟩ => ⟨S1x1x128, .i32⟩
  | .local _ .vmem, ⟨7, _⟩ => ⟨S1x1x128, .i32⟩
  | .local _ .vmem, ⟨8, _⟩ => ⟨S1x64x1, .i32⟩
  | .local _ .vmem, ⟨9, _⟩ => ⟨S1x64x1, .i32⟩
  | .local _ .vmem, ⟨10, _⟩ => ⟨S1x1x128, .i32⟩
  | .local _ .vmem, ⟨11, _⟩ => ⟨S1x1x128, .i32⟩
  | .local _ .vmem, ⟨12, _⟩ => ⟨S1x64x1, .i32⟩
  | .local _ .vmem, ⟨13, _⟩ => ⟨S1x64x1, .i32⟩
  | .local _ .vmem, ⟨14, _⟩ => ⟨S1x1x128, .i32⟩
  | .local _ .vmem, ⟨15, _⟩ => ⟨S1x1x128, .i32⟩
  | .local _ .vmem, ⟨16, _⟩ => ⟨S1x64x1, .i32⟩
  | .local _ .vmem, ⟨17, _⟩ => ⟨S1x64x1, .i32⟩
  | .local _ .vmem, ⟨18, _⟩ => ⟨S1x1x128, .i32⟩
  | .local _ .vmem, ⟨19, _⟩ => ⟨S1x1x128, .i32⟩
  | .local _ .vmem, ⟨20, _⟩ => ⟨S1x1x128, .i32⟩
  | .local _ .vmem, ⟨21, _⟩ => ⟨S1x1x128, .i32⟩
  | .local _ .vmem, ⟨22, _⟩ => ⟨S139x128, .f32⟩
  | .local _ .vmem, ⟨23, _⟩ => ⟨S1x64x128x128, .f32⟩
  | .local _ .vmem, ⟨24, _⟩ => ⟨S1x64x128x128, .f32⟩
  | _, _ => ⟨S2x768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨3, ![2, 12, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x64x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x64x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S1x64x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S1x1x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 1 → Memref sig .tc .vmem S139x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x64x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  bcast_S2x768_S2x768x1_0_1 : S2x768.BroadcastsInDim S2x768x1 (![0, 1] : Fin 2 → Fin S2x768x1.rank)
  bcast_S2x768_S2x1x768_0_2 : S2x768.BroadcastsInDim S2x1x768 (![0, 2] : Fin 2 → Fin S2x1x768.rank)
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S64x1_S64x128 : S64x1.Broadcasts S64x128
  broadcasts_S1x128_S64x128 : S1x128.Broadcasts S64x128
  iota_S64x128x66_d2_w32 : S64x128x66.Iotas .tc 32 [2]
  shapeCasts_S64x128_S64x128x1 : S64x128.ShapeCasts S64x128x1
  broadcasts_S64x128x1_S64x128x66 : S64x128x1.Broadcasts S64x128x66
  natLt_1_32 : 1 < 32
  bitsLt_bf16_f32 : FTy.bits .bf16 < FTy.bits .f32
  shapeCasts_S64x128x66_S8192x66 : S64x128x66.ShapeCasts S8192x66
  inb_S139x128_S66x128_0_0 : ∀ a, (![0, 0] : Fin 2 → Nat) a + S66x128.size a ≤ S139x128.size a
  h_S66x128 : 0 < S66x128.numel
  shapeCasts_S8192x128_S64x128x128 : S8192x128.ShapeCasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  inb_S139x128_S66x128_66_0 : ∀ a, (![66, 0] : Fin 2 → Nat) a + S66x128.size a ≤ S139x128.size a
  iota_S64x128x6_d2_w32 : S64x128x6.Iotas .tc 32 [2]
  broadcasts_S64x128x1_S64x128x6 : S64x128x1.Broadcasts S64x128x6
  shapeCasts_S64x128x6_S8192x6 : S64x128x6.ShapeCasts S8192x6
  inb_S139x128_S6x128_133_0 : ∀ a, (![133, 0] : Fin 2 → Nat) a + S6x128.size a ≤ S139x128.size a
  h_S6x128 : 0 < S6x128.numel
  inb_S139x128_S1x128_132_0 : ∀ a, (![132, 0] : Fin 2 → Nat) a + S1x128.size a ≤ S139x128.size a
  h_S1x128 : 0 < S1x128.numel
  shapeCasts_S1x128_S128 : S1x128.ShapeCasts S128
  shapeCasts_S128_S1x1x128 : S128.ShapeCasts S1x1x128
  broadcasts_S64x128x1_S64x128x128 : S64x128x1.Broadcasts S64x128x128
  broadcasts_S1x1x128_S64x128x128 : S1x1x128.Broadcasts S64x128x128
  dot_S8192x66_S66x128_S8192x128_1_0_0_1_n_n_wf : DotDims.WF S8192x66 S66x128 S8192x128 [1] [0] [0] [1] [] []
  dot_S8192x6_S6x128_S8192x128_1_0_0_1_n_n_wf : DotDims.WF S8192x6 S6x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1.size a ≤ S2x768x1.size a
  hwx0_0 : ∀ i : grid0.Coords, EltTy.bits .i32 = 32 ∨ (Rect.block (s := S2x768x1) S1x64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S2x1x768.size a
  hwx0_1 : ∀ i : grid0.Coords, EltTy.bits .i32 = 32 ∨ (Rect.block (s := S2x1x768) S1x1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1.size a ≤ S2x768x1.size a
  hwx0_2 : ∀ i : grid0.Coords, EltTy.bits .i32 = 32 ∨ (Rect.block (s := S2x768x1) S1x64x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x768.size a
  hwx0_3 : ∀ i : grid0.Coords, EltTy.bits .i32 = 32 ∨ (Rect.block (s := S2x1x768) S1x1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x1.size a ≤ S2x768x1.size a
  hwx0_4 : ∀ i : grid0.Coords, EltTy.bits .i32 = 32 ∨ (Rect.block (s := S2x768x1) S1x64x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x768.size a
  hwx0_5 : ∀ i : grid0.Coords, EltTy.bits .i32 = 32 ∨ (Rect.block (s := S2x1x768) S1x1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S2x768x1.size a
  hwx0_6 : ∀ i : grid0.Coords, EltTy.bits .i32 = 32 ∨ (Rect.block (s := S2x768x1) S1x64x1.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S2x1x768.size a
  hwx0_7 : ∀ i : grid0.Coords, EltTy.bits .i32 = 32 ∨ (Rect.block (s := S2x1x768) S1x1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x1.size a ≤ S2x768x1.size a
  hwx0_8 : ∀ i : grid0.Coords, EltTy.bits .i32 = 32 ∨ (Rect.block (s := S2x768x1) S1x64x1.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x128.size a ≤ S2x1x768.size a
  hwx0_9 : ∀ i : grid0.Coords, EltTy.bits .i32 = 32 ∨ (Rect.block (s := S2x1x768) S1x1x128.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x128.size a ≤ S2x1x768.size a
  hwx0_10 : ∀ i : grid0.Coords, EltTy.bits .i32 = 32 ∨ (Rect.block (s := S2x1x768) S1x1x128.size (cc0_transform_10 i) (hinb0_10 i)).WholeWords (EltTy.packing .i32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S139x128.size a ≤ S139x128.size a
  hwx0_11 : ∀ i : grid0.Coords, EltTy.bits .f32 = 32 ∨ (Rect.block (s := S139x128) S139x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x64x128x128.size a ≤ S2x768x768x128.size a
  hwx0_12 : ∀ i : grid0.Coords, EltTy.bits .f32 = 32 ∨ (Rect.block (s := S2x768x768x128) S1x64x128x128.size (cc0_transform_12 i) (hinb0_12 i)).WholeWords (EltTy.packing .f32)

variable [Facts₀]

def dot_S8192x66_S66x128_S8192x128_1_0_0_1_n_n : DotDims S8192x66 S66x128 S8192x128 where
  lhsContracting := [1]
  rhsContracting := [0]
  lhsNonContracting := [0]
  rhsNonContracting := [1]
  lhsBatch := []
  rhsBatch := []
  wf := dot_S8192x66_S66x128_S8192x128_1_0_0_1_n_n_wf
def dot_S8192x6_S6x128_S8192x128_1_0_0_1_n_n : DotDims S8192x6 S6x128 S8192x128 where
  lhsContracting := [1]
  rhsContracting := [0]
  lhsNonContracting := [0]
  rhsNonContracting := [1]
  lhsBatch := []
  rhsBatch := []
  wf := dot_S8192x6_S6x128_S8192x128_1_0_0_1_n_n_wf

abbrev win0_0 : Pipeline.Window sig grid0 :=
  Pipeline.Window.ofSpec (Memref.whole main_v0) S1x64x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x64x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x64x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S139x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x64x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2x768 : Shape := ⟨2, ![2, 768]⟩
abbrev S139x128 : Shape := ⟨2, ![139, 128]⟩
abbrev S2x768x1 : Shape := ⟨3, ![2, 768, 1]⟩
abbrev S2x1x768 : Shape := ⟨3, ![2, 1, 768]⟩
abbrev S2x768x768 : Shape := ⟨3, ![2, 768, 768]⟩
abbrev S_ : Shape := ⟨0, ![]⟩
abbrev S2x768x768x1 : Shape := ⟨4, ![2, 768, 768, 1]⟩
abbrev S1x1x1x66 : Shape := ⟨4, ![1, 1, 1, 66]⟩
abbrev S2x768x768x66 : Shape := ⟨4, ![2, 768, 768, 66]⟩
abbrev S1x1x1x6 : Shape := ⟨4, ![1, 1, 1, 6]⟩
abbrev S2x768x768x6 : Shape := ⟨4, ![2, 768, 768, 6]⟩
abbrev S2x768x768x139 : Shape := ⟨4, ![2, 768, 768, 139]⟩
abbrev S2x768x768x128 : Shape := ⟨4, ![2, 768, 768, 128]⟩

abbrev nBuf : Space → Nat
  | .hbm => 122
  | .vmem => 0
  | .smem => 0
  | _ => 0

abbrev bufTy : (tb : Table) → Fin (tcTables nBuf tb) → BufTy
  | .hbm, ⟨0, _⟩ => ⟨S2x768, .i32⟩
  | .hbm, ⟨1, _⟩ => ⟨S2x768, .i32⟩
  | .hbm, ⟨2, _⟩ => ⟨S2x768, .i32⟩
  | .hbm, ⟨3, _⟩ => ⟨S2x768, .i32⟩
  | .hbm, ⟨4, _⟩ => ⟨S2x768, .i32⟩
  | .hbm, ⟨5, _⟩ => ⟨S2x768, .i32⟩
  | .hbm, ⟨6, _⟩ => ⟨S139x128, .f32⟩
  | .hbm, ⟨7, _⟩ => ⟨S2x768x1, .i32⟩
  | .hbm, ⟨8, _⟩ => ⟨S2x1x768, .i32⟩
  | .hbm, ⟨9, _⟩ => ⟨S2x768x768, .i32⟩
  | .hbm, ⟨10, _⟩ => ⟨S2x768x768, .i32⟩
  | .hbm, ⟨11, _⟩ => ⟨S2x768x768, .i1⟩
  | .hbm, ⟨12, _⟩ => ⟨S2x768x1, .i32⟩
  | .hbm, ⟨13, _⟩ => ⟨S2x1x768, .i32⟩
  | .hbm, ⟨14, _⟩ => ⟨S2x768x768, .i32⟩
  | .hbm, ⟨15, _⟩ => ⟨S2x768x768, .i32⟩
  | .hbm, ⟨16, _⟩ => ⟨S2x768x768, .i1⟩
  | .hbm, ⟨17, _⟩ => ⟨S2x768x1, .i32⟩
  | .hbm, ⟨18, _⟩ => ⟨S2x1x768, .i32⟩
  | .hbm, ⟨19, _⟩ => ⟨S2x768x768, .i32⟩
  | .hbm, ⟨20, _⟩ => ⟨S2x768x768, .i32⟩
  | .hbm, ⟨21, _⟩ => ⟨S2x768x768, .i1⟩
  | .hbm, ⟨22, _⟩ => ⟨S2x768x1, .i32⟩
  | .hbm, ⟨23, _⟩ => ⟨S2x1x768, .i32⟩
  | .hbm, ⟨24, _⟩ => ⟨S2x768x768, .i32⟩
  | .hbm, ⟨25, _⟩ => ⟨S2x768x768, .i32⟩
  | .hbm, ⟨26, _⟩ => ⟨S2x768x768, .i32⟩
  | .hbm, ⟨27, _⟩ => ⟨S_, .i32⟩
  | .hbm, ⟨28, _⟩ => ⟨S2x768, .i32⟩
  | .hbm, ⟨29, _⟩ => ⟨S2x768, .i1⟩
  | .hbm, ⟨30, _⟩ => ⟨S_, .i32⟩
  | .hbm, ⟨31, _⟩ => ⟨S_, .i32⟩
  | .hbm, ⟨32, _⟩ => ⟨S2x768, .i32⟩
  | .hbm, ⟨33, _⟩ => ⟨S2x768, .i32⟩
  | .hbm, ⟨34, _⟩ => ⟨S2x1x768, .i32⟩
  | .hbm, ⟨35, _⟩ => ⟨S2x768x768, .f32⟩
  | .hbm, ⟨36, _⟩ => ⟨S2x1x768, .f32⟩
  | .hbm, ⟨37, _⟩ => ⟨S2x768x768, .f32⟩
  | .hbm, ⟨38, _⟩ => ⟨S2x768x768, .f32⟩
  | .hbm, ⟨39, _⟩ => ⟨S2x768x768, .f32⟩
  | .hbm, ⟨40, _⟩ => ⟨S2x768x768, .i32⟩
  | .hbm, ⟨41, _⟩ => ⟨S2x768x768, .i32⟩
  | .hbm, ⟨42, _⟩ => ⟨S2x768x768, .i32⟩
  | .hbm, ⟨43, _⟩ => ⟨S2x768x768, .i32⟩
  | .hbm, ⟨44, _⟩ => ⟨S_, .i32⟩
  | .hbm, ⟨45, _⟩ => ⟨S2x768x768, .i32⟩
  | .hbm, ⟨46, _⟩ => ⟨S2x768x768, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S2x768x768, .i32⟩
  | .hbm, ⟨51, _⟩ => ⟨S2x768x768, .i32⟩
  | .hbm, ⟨52, _⟩ => ⟨S_, .i32⟩
  | .hbm, ⟨53, _⟩ => ⟨S2x768x768, .i32⟩
  | .hbm, ⟨54, _⟩ => ⟨S2x768x768, .i32⟩
  | .hbm, ⟨55, _⟩ => ⟨S_, .i32⟩
  | .hbm, ⟨56, _⟩ => ⟨S_, .i32⟩
  | .hbm, ⟨57, _⟩ => ⟨S2x768x768, .i32⟩
  | .hbm, ⟨58, _⟩ => ⟨S2x768x768, .i32⟩
  | .hbm, ⟨59, _⟩ => ⟨S2x768x768x1, .i32⟩
  | .hbm, ⟨60, _⟩ => ⟨S1x1x1x66, .i32⟩
  | .hbm, ⟨61, _⟩ => ⟨S2x768x768x66, .i32⟩
  | .hbm, ⟨62, _⟩ => ⟨S2x768x768x66, .i32⟩
  | .hbm, ⟨63, _⟩ => ⟨S2x768x768x66, .i1⟩
  | .hbm, ⟨64, _⟩ => ⟨S2x768x768x66, .f32⟩
  | .hbm, ⟨65, _⟩ => ⟨S2x768x1, .i32⟩
  | .hbm, ⟨66, _⟩ => ⟨S2x1x768, .i32⟩
  | .hbm, ⟨67, _⟩ => ⟨S2x768x768, .i32⟩
  | .hbm, ⟨68, _⟩ => ⟨S2x768x768, .i32⟩
  | .hbm, ⟨69, _⟩ => ⟨S2x768x768, .i32⟩
  | .hbm, ⟨70, _⟩ => ⟨S_, .i32⟩
  | .hbm, ⟨71, _⟩ => ⟨S2x768x768, .i32⟩
  | .hbm, ⟨72, _⟩ => ⟨S2x768x768, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S2x768x768, .i32⟩
  | .hbm, ⟨77, _⟩ => ⟨S2x768x768, .i32⟩
  | .hbm, ⟨78, _⟩ => ⟨S_, .i32⟩
  | .hbm, ⟨79, _⟩ => ⟨S2x768x768, .i32⟩
  | .hbm, ⟨80, _⟩ => ⟨S2x768x768, .i32⟩
  | .hbm, ⟨81, _⟩ => ⟨S2x768x768, .i1⟩
  | .hbm, ⟨82, _⟩ => ⟨S_, .i32⟩
  | .hbm, ⟨83, _⟩ => ⟨S_, .i32⟩
  | .hbm, ⟨84, _⟩ => ⟨S2x768x768, .i32⟩
  | .hbm, ⟨85, _⟩ => ⟨S2x768x768, .i32⟩
  | .hbm, ⟨86, _⟩ => ⟨S2x768x768x1, .i32⟩
  | .hbm, ⟨87, _⟩ => ⟨S1x1x1x66, .i32⟩
  | .hbm, ⟨88, _⟩ => ⟨S2x768x768x66, .i32⟩
  | .hbm, ⟨89, _⟩ => ⟨S2x768x768x66, .i32⟩
  | .hbm, ⟨90, _⟩ => ⟨S2x768x768x66, .i1⟩
  | .hbm, ⟨91, _⟩ => ⟨S2x768x768x66, .f32⟩
  | .hbm, ⟨92, _⟩ => ⟨S2x768x1, .i32⟩
  | .hbm, ⟨93, _⟩ => ⟨S2x1x768, .i32⟩
  | .hbm, ⟨94, _⟩ => ⟨S2x768x768, .i32⟩
  | .hbm, ⟨95, _⟩ => ⟨S2x768x768, .i32⟩
  | .hbm, ⟨96, _⟩ => ⟨S2x768x768, .i32⟩
  | .hbm, ⟨97, _⟩ => ⟨S_, .i32⟩
  | .hbm, ⟨98, _⟩ => ⟨S2x768x768, .i32⟩
  | .hbm, ⟨99, _⟩ => ⟨S2x768x768, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S2x768x768, .i32⟩
  | .hbm, ⟨104, _⟩ => ⟨S2x768x768, .i32⟩
  | .hbm, ⟨105, _⟩ => ⟨S_, .i32⟩
  | .hbm, ⟨106, _⟩ => ⟨S2x768x768, .i32⟩
  | .hbm, ⟨107, _⟩ => ⟨S2x768x768, .i32⟩
  | .hbm, ⟨108, _⟩ => ⟨S_, .i32⟩
  | .hbm, ⟨109, _⟩ => ⟨S_, .i32⟩
  | .hbm, ⟨110, _⟩ => ⟨S2x768x768, .i32⟩
  | .hbm, ⟨111, _⟩ => ⟨S2x768x768, .i32⟩
  | .hbm, ⟨112, _⟩ => ⟨S2x768x768x1, .i32⟩
  | .hbm, ⟨113, _⟩ => ⟨S1x1x1x6, .i32⟩
  | .hbm, ⟨114, _⟩ => ⟨S2x768x768x6, .i32⟩
  | .hbm, ⟨115, _⟩ => ⟨S2x768x768x6, .i32⟩
  | .hbm, ⟨116, _⟩ => ⟨S2x768x768x6, .i1⟩
  | .hbm, ⟨117, _⟩ => ⟨S2x768x768x6, .f32⟩
  | .hbm, ⟨118, _⟩ => ⟨S2x768x768x1, .i1⟩
  | .hbm, ⟨119, _⟩ => ⟨S2x768x768x1, .f32⟩
  | .hbm, ⟨120, _⟩ => ⟨S2x768x768x139, .f32⟩
  | .hbm, ⟨121, _⟩ => ⟨S2x768x768x128, .f32⟩
  | _, _ => ⟨S2x768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_0 : Ref sig .tc := ⟨.hbm, 30, rfl⟩
abbrev main_call0_v0 : Ref sig .tc := ⟨.hbm, 31, rfl⟩
abbrev main_call0_v1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_1 : Ref sig .tc := ⟨.hbm, 44, rfl⟩
abbrev main_v33 : Ref sig .tc := ⟨.hbm, 45, rfl⟩
abbrev main_v34 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v35 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v36 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_call4_v3 : Ref sig .tc := ⟨.hbm, 62, rfl⟩
abbrev main_call4_v4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_c_7 : Ref sig .tc := ⟨.hbm, 74, rfl⟩
abbrev main_call5_v0 : Ref sig .tc := ⟨.hbm, 75, rfl⟩
abbrev main_call5_v1 : Ref sig .tc := ⟨.hbm, 76, rfl⟩
abbrev main_call5_v2 : Ref sig .tc := ⟨.hbm, 77, rfl⟩
abbrev main_call5_v3 : Ref sig .tc := ⟨.hbm, 78, rfl⟩
abbrev main_call5_v4 : Ref sig .tc := ⟨.hbm, 79, rfl⟩
abbrev main_v45 : Ref sig .tc := ⟨.hbm, 80, rfl⟩
abbrev main_v46 : Ref sig .tc := ⟨.hbm, 81, rfl⟩
abbrev main_c_8 : Ref sig .tc := ⟨.hbm, 82, rfl⟩
abbrev main_call6_v0 : Ref sig .tc := ⟨.hbm, 83, rfl⟩
abbrev main_call6_v1 : Ref sig .tc := ⟨.hbm, 84, rfl⟩
abbrev main_v47 : Ref sig .tc := ⟨.hbm, 85, rfl⟩
abbrev main_call7_v0 : Ref sig .tc := ⟨.hbm, 86, rfl⟩
abbrev main_call7_v1 : Ref sig .tc := ⟨.hbm, 87, rfl⟩
abbrev main_call7_v2 : Ref sig .tc := ⟨.hbm, 88, rfl⟩
abbrev main_call7_v3 : Ref sig .tc := ⟨.hbm, 89, rfl⟩
abbrev main_call7_v4 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_c_9 : Ref sig .tc := ⟨.hbm, 97, rfl⟩
abbrev main_v54 : Ref sig .tc := ⟨.hbm, 98, rfl⟩
abbrev main_v55 : Ref sig .tc := ⟨.hbm, 99, rfl⟩
abbrev main_c_10 : Ref sig .tc := ⟨.hbm, 100, rfl⟩
abbrev main_c_11 : Ref sig .tc := ⟨.hbm, 101, rfl⟩
abbrev main_call8_v0 : Ref sig .tc := ⟨.hbm, 102, rfl⟩
abbrev main_call8_v1 : Ref sig .tc := ⟨.hbm, 103, rfl⟩
abbrev main_call8_v2 : Ref sig .tc := ⟨.hbm, 104, rfl⟩
abbrev main_call8_v3 : Ref sig .tc := ⟨.hbm, 105, rfl⟩
abbrev main_call8_v4 : Ref sig .tc := ⟨.hbm, 106, rfl⟩
abbrev main_v56 : Ref sig .tc := ⟨.hbm, 107, rfl⟩
abbrev main_c_12 : Ref sig .tc := ⟨.hbm, 108, rfl⟩
abbrev main_call9_v0 : Ref sig .tc := ⟨.hbm, 109, rfl⟩
abbrev main_call9_v1 : Ref sig .tc := ⟨.hbm, 110, rfl⟩
abbrev main_v57 : Ref sig .tc := ⟨.hbm, 111, rfl⟩
abbrev main_call10_v0 : Ref sig .tc := ⟨.hbm, 112, rfl⟩
abbrev main_call10_v1 : Ref sig .tc := ⟨.hbm, 113, rfl⟩
abbrev main_call10_v2 : Ref sig .tc := ⟨.hbm, 114, rfl⟩
abbrev main_call10_v3 : Ref sig .tc := ⟨.hbm, 115, rfl⟩
abbrev main_call10_v4 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩

abbrev nD : Nat := 1
abbrev τ : Topo := Topo.v7x

variable {F : FTy → Type} [FloatOps F]

class Facts₀ : Prop where
  bcast_S2x768_S2x768x1_0_1 : S2x768.BroadcastsInDim S2x768x1 (![0, 1] : Fin 2 → Fin S2x768x1.rank)
  bcast_S2x768_S2x1x768_0_2 : S2x768.BroadcastsInDim S2x1x768 (![0, 2] : Fin 2 → Fin S2x1x768.rank)
  bcast_S2x768x1_S2x768x768_0_1_2 : S2x768x1.BroadcastsInDim S2x768x768 (![0, 1, 2] : Fin 3 → Fin S2x768x768.rank)
  bcast_S2x1x768_S2x768x768_0_1_2 : S2x1x768.BroadcastsInDim S2x768x768 (![0, 1, 2] : Fin 3 → Fin S2x768x768.rank)
  bcast_S_S2x768 : S_.BroadcastsInDim S2x768 (![] : Fin 0 → Fin S2x768.rank)
  bcast_S_S2x768x768 : S_.BroadcastsInDim S2x768x768 (![] : Fin 0 → Fin S2x768x768.rank)
  bcast_S2x768x768_S2x768x768x1_0_1_2 : S2x768x768.BroadcastsInDim S2x768x768x1 (![0, 1, 2] : Fin 3 → Fin S2x768x768x1.rank)
  bcast_S2x768x768x1_S2x768x768x66_0_1_2_3 : S2x768x768x1.BroadcastsInDim S2x768x768x66 (![0, 1, 2, 3] : Fin 4 → Fin S2x768x768x66.rank)
  bcast_S1x1x1x66_S2x768x768x66_0_1_2_3 : S1x1x1x66.BroadcastsInDim S2x768x768x66 (![0, 1, 2, 3] : Fin 4 → Fin S2x768x768x66.rank)
  bcast_S2x768x768x1_S2x768x768x6_0_1_2_3 : S2x768x768x1.BroadcastsInDim S2x768x768x6 (![0, 1, 2, 3] : Fin 4 → Fin S2x768x768x6.rank)
  bcast_S1x1x1x6_S2x768x768x6_0_1_2_3 : S1x1x1x6.BroadcastsInDim S2x768x768x6 (![0, 1, 2, 3] : Fin 4 → Fin S2x768x768x6.rank)
  concatenates_S2x768x768x66_S2x768x768x66_S2x768x768x1_S2x768x768x6_S2x768x768x139_d3 : Shape.Concatenates [S2x768x768x66, S2x768x768x66, S2x768x768x1, S2x768x768x6] S2x768x768x139 3
  dot_S2x768x768x139_S139x128_S2x768x768x128_3_0_012_1_n_n_wf : DotDims.WF S2x768x768x139 S139x128 S2x768x768x128 [3] [0] [0, 1, 2] [1] [] []

variable [Facts₀]

def dot_S2x768x768x139_S139x128_S2x768x768x128_3_0_012_1_n_n : DotDims S2x768x768x139 S139x128 S2x768x768x128 where
  lhsContracting := [3]
  rhsContracting := [0]
  lhsNonContracting := [0, 1, 2]
  rhsNonContracting := [1]
  lhsBatch := []
  rhsBatch := []
  wf := dot_S2x768x768x139_S139x128_S2x768x768x128_3_0_012_1_n_n_wf

class Facts : Prop extends Facts₀ where

variable [Facts]
-- ==== Proof.Spec.lean ====
/-
  The relative-position encoding as ONE function of the argument arrays, index by index.

  For a batch b, a row token l, a column token m and an output channel z the encoding is the sum of four rows of the
  weight table W (139 rows of 128 channels), picked by three clipped integer offsets and one equality test:

    out[b, l, m, z] =  W[dRes, z]  +  W[66 + dTok, z]  +  W[133 + dChain, z]  +  [entity l = entity m] * W[132, z]

  where each row pick is written as the sum over the group's width of a 0/1 indicator times the row (which is what a
  one-hot matrix product is), so that the four groups are literally the four stretches 0..65, 66..131, 132, 133..138
  of ONE sum over the 139 rows: `sum_split139`. Addition of extended reals is commutative and associative and an
  indicator is 0 or 1, so no finiteness of W is needed for any step.

  The integer offsets:
    * period     = the column token's cyclic period when positive, else 10000;
    * relPos     = (res l - res m) - period * roundHalfEven ((res l - res m) / period), the division and the rounding on
                   the (exact) reals, the result converted back to a 32-bit integer;
    * dRes       = clip (relPos + 32) to [0, 64] when the two tokens share a chain, else 65;
    * dTok       = clip (tok l - tok m + 32) to [0, 64] when they share chain AND residue, else 65;
    * dChain     = 5 when they share a chain, else clip (sym l - sym m + 2) to [0, 4].
-/
import Idealize.ShloMosaic.PureOps.Ideal
import Idealize.ShloMosaic.PureOps.Ideal.Laws
import Idealize.ShloMosaic.Lib.ValueIdx

noncomputable section

namespace Cert.RelPos

open Idealize.ShloMosaic Idealize.ShloMosaic.ValueIdx

/-- An array of 2 x 768 integer ids (chain, residue, entity, period, token, symmetry copy). -/
abbrev Ids : Type := (⟨2, ![2, 768]⟩ : Shape).Idx → BitVec 32
/-- The weight table: 139 feature rows of 128 channels, extended reals. -/
abbrev Tbl : Type := (⟨2, ![139, 128]⟩ : Shape).Idx → EReal

/-- The cyclic period of a column token: its own when positive, else 10000. -/
def period (cy : BitVec 32) : BitVec 32 := Scalar.select (IntOp.cmpi .sgt cy 0#32) cy 10000#32

/-- The residue offset reduced modulo the period to the representative nearest zero (ties to even). -/
def relPos (rr rc cy : BitVec 32) : BitVec 32 :=
  IntOp.subi (IntOp.subi rr rc)
    (IntOp.muli (period cy)
      (FloatOps.fptosi (F := Ideal) (φ := .f32) 32
        (FloatOps.roundeven (F := Ideal) (φ := .f32)
          (FloatOps.divf (F := Ideal) (φ := .f32) (FloatOps.sitofp (F := Ideal) .f32 (IntOp.subi rr rc))
            (FloatOps.sitofp (F := Ideal) .f32 (period cy))))))

/-- `x` clipped to `[lo, hi]` (signed): first raised to `lo`, then lowered to `hi`. -/
def clip (lo hi x : BitVec 32) : BitVec 32 := IntOp.minsi hi (IntOp.maxsi lo x)

/-- The residue bin: the clipped shifted offset on one chain, the last bin (65) across chains. -/
def dRes (ar ac rr rc cy : BitVec 32) : BitVec 32 :=
  Scalar.select (IntOp.cmpi .eq ar ac) (clip 0#32 64#32 (IntOp.addi (relPos rr rc cy) 32#32)) 65#32

/-- The token bin: the clipped shifted token offset inside one residue of one chain, else the last bin (65). -/
def dTok (ar ac rr rc tr tc : BitVec 32) : BitVec 32 :=
  Scalar.select (IntOp.andi (IntOp.cmpi .eq ar ac) (IntOp.cmpi .eq rr rc))
    (clip 0#32 64#32 (IntOp.addi (IntOp.subi tr tc) 32#32)) 65#32

/-- The chain bin: the last bin (5) on one chain, else the clipped shifted offset of the symmetry copies. -/
def dChain (ar ac sr sc : BitVec 32) : BitVec 32 :=
  Scalar.select (IntOp.cmpi .eq ar ac) 5#32 (clip 0#32 4#32 (IntOp.addi (IntOp.subi sr sc) 2#32))

/-- A one-bit truth value as the extended real 0 or 1. -/
def ind (b : BitVec 1) : EReal := FloatOps.uitofp (F := Ideal) .f32 b

/-- The 0/1 indicator that bin `d` is the `k`-th. -/
def hot (d : BitVec 32) (k : Nat) : EReal := ind (IntOp.cmpi .eq d (BitVec.ofNat 32 k))

/-- One entry of the encoding, from the eleven ids it depends on (row then column of chain, residue, entity, token,
    symmetry copy; the column's period), the table and the channel. -/
def entryOf (ar ac rr rc er ec tr tc sr sc cy : BitVec 32) (W : Tbl) (z : Fin 128) : EReal :=
  ((∑ k : Fin 66, hot (dRes ar ac rr rc cy) k.val * W (ix2 (⟨k.val, by omega⟩ : Fin 139) z)
      + ∑ k : Fin 66, hot (dTok ar ac rr rc tr tc) k.val * W (ix2 (⟨66 + k.val, by omega⟩ : Fin 139) z))
      + ∑ k : Fin 6, hot (dChain ar ac sr sc) k.val * W (ix2 (⟨133 + k.val, by omega⟩ : Fin 139) z))
    + ind (IntOp.cmpi .eq er ec) * W (ix2 (⟨132, by omega⟩ : Fin 139) z)

/-- The entry at batch `b`, row token `l`, column token `m`, channel `z` of the arrays
    (chain, residue, entity, period, token, symmetry copy) and the table. -/
def entry (a r e cy t s : Ids) (W : Tbl) (b : Fin 2) (l m : Fin 768) (z : Fin 128) : EReal :=
  entryOf (a (ix2 b l)) (a (ix2 b m)) (r (ix2 b l)) (r (ix2 b m)) (e (ix2 b l)) (e (ix2 b m))
    (t (ix2 b l)) (t (ix2 b m)) (s (ix2 b l)) (s (ix2 b m)) (cy (ix2 b m)) W z

/-- THE ENCODING: the whole 2 x 768 x 768 x 128 result as a function of the seven arguments. -/
def encoding (a r e cy t s : Ids) (W : Tbl) : (⟨4, ![2, 768, 768, 128]⟩ : Shape).Idx → EReal :=
  fun j => entry a r e cy t s W (j 0) (j 1) (j 2) (j 3)

theorem encoding_ix4 (a r e cy t s : Ids) (W : Tbl) (b : Fin 2) (l m : Fin 768) (z : Fin 128) :
    encoding a r e cy t s W (ix4 b l m z) = entry a r e cy t s W b l m z := rfl

/-- A sum over the 139 feature rows, cut into the four groups: rows 0..65, rows 66..131, rows 133..138, row 132
    (in the order the fused computation adds them). -/
theorem sum_split139 {M : Type*} [AddCommMonoid M] (f : Fin 139 → M) :
    ∑ k : Fin 139, f k
      = ((∑ k : Fin 66, f ⟨k.val, by omega⟩ + ∑ k : Fin 66, f ⟨66 + k.val, by omega⟩)
          + ∑ k : Fin 6, f ⟨133 + k.val, by omega⟩) + f ⟨132, by omega⟩ := by
  have h1 : ∑ k : Fin 139, f k
      = ∑ k : Fin 66, f ⟨k.val, by omega⟩ + ∑ k : Fin 73, f ⟨66 + k.val, by omega⟩ :=
    Fin.sum_univ_add (a := 66) (b := 73) f
  have h2 : ∑ k : Fin 73, f ⟨66 + k.val, by omega⟩
      = ∑ k : Fin 66, f ⟨66 + k.val, by omega⟩ + ∑ k : Fin 7, f ⟨132 + k.val, by omega⟩ := by
    refine (Fin.sum_univ_add (a := 66) (b := 7) (fun k : Fin 73 => f ⟨66 + k.val, by omega⟩)).trans ?_
    refine congrArg₂ (· + ·) rfl (Finset.sum_congr rfl fun k _ => ?_)
    exact congrArg f (Fin.ext (by show 66 + (66 + k.val) = 132 + k.val; omega))
  have h3 : ∑ k : Fin 7, f ⟨132 + k.val, by omega⟩
      = f ⟨132, by omega⟩ + ∑ k : Fin 6, f ⟨133 + k.val, by omega⟩ := by
    rw [Fin.sum_univ_succ]
    refine congrArg₂ (· + ·) rfl (Finset.sum_congr rfl fun k _ => ?_)
    exact congrArg f (Fin.ext (by show 132 + (k.val + 1) = 133 + k.val; omega))
  rw [h1, h2, h3]
  abel

/-- A one-bit value widened to 32 bits and read as a signed integer is the bit itself: 0 or 1. -/
theorem sitofp_widen (b : BitVec 1) :
    FloatOps.sitofp (F := Ideal) .f32 (b.setWidth 32) = ind b := by
  have h : ∀ b : BitVec 1, (b.setWidth 32).toInt = (b.toNat : ℤ) := by decide
  show (((b.setWidth 32).toInt : ℝ) : EReal) = ((b.toNat : ℝ) : EReal)
  rw [h b]
  norm_cast

end Cert.RelPos

end
-- ==== Proof.RefValue.lean ====
/-
  The reference computation, read at one index, is the specification's entry.

  For every pair (l, m) of tokens of a batch b the reference builds three clipped integer offsets and one equality
  test from broadcasts of the id arrays along the row axis and along the column axis, turns each offset into a row of
  zeros and ones (the comparison of the offset with 0, 1, 2, ...), lays the four rows end to end
  (66 + 66 + 1 + 6 = 139 features) and contracts the 139 features with the 139 x 128 weight table.

  The steps, in the order of the file:
    1. a row broadcast of an id array read at (b, l, m) is the array at (b, l), a column broadcast the array at (b, m);
       the column's period is the specification's `period` of the period array at (b, m);
    2. the integer stages at (b, l, m) are the specification's `dRes`, `dTok`, `dChain` of the ids of the two tokens,
       and the entity test is the comparison of the two entity ids;
    3. a row of zeros and ones at (b, l, m, k) is the indicator `hot bin k`;
    4. the concatenation read at feature k is the stretch that holds k, read at k less the stretch's start;
    5. the contraction at (b, l, m, z) is the sum over the 139 features of feature times table entry, and
       `sum_split139` cuts it into the four stretches, in the order `entryOf` adds them.
-/
import proofs.«108437_j69999376990394_1_alg».proof.Proof.RefRead
import proofs.«108437_j69999376990394_1_alg».proof.Proof.Spec

noncomputable section

namespace Cert.RelPos.Ref

open Cert.RelPos Cert.ReferenceIdeal.ReadP Idealize.ShloMosaic Idealize.ShloMosaic.ValueIdx

/-! ## Indices agree when their coordinates agree -/

/-- Two rank-2 indices with the same two coordinates are equal. -/
theorem ext2 {n0 n1 : Nat} {i j : (⟨2, ![n0, n1]⟩ : Shape).Idx} (h0 : i 0 = j 0) (h1 : i 1 = j 1) : i = j := by
  funext a; match a with | ⟨0, _⟩ => exact h0 | ⟨1, _⟩ => exact h1

/-- Two rank-3 indices with the same three coordinates are equal. -/
theorem ext3 {n0 n1 n2 : Nat} {i j : (⟨3, ![n0, n1, n2]⟩ : Shape).Idx} (h0 : i 0 = j 0) (h1 : i 1 = j 1) (h2 : i 2 = j 2) :
    i = j := by
  funext a; match a with | ⟨0, _⟩ => exact h0 | ⟨1, _⟩ => exact h1 | ⟨2, _⟩ => exact h2

/-- Two rank-4 indices with the same four coordinates are equal. -/
theorem ext4 {n0 n1 n2 n3 : Nat} {i j : (⟨4, ![n0, n1, n2, n3]⟩ : Shape).Idx} (h0 : i 0 = j 0) (h1 : i 1 = j 1) (h2 : i 2 = j 2)
    (h3 : i 3 = j 3) : i = j := by
  funext a; match a with | ⟨0, _⟩ => exact h0 | ⟨1, _⟩ => exact h1 | ⟨2, _⟩ => exact h2 | ⟨3, _⟩ => exact h3

/-! ## 1. Broadcasts of an id array along the row axis and along the column axis

A row broadcast first gives the array a unit column axis and then repeats it along that axis; a column broadcast does
the same with a unit row axis. Read at (b, l, m), the composed index is (b, l), respectively (b, m). -/

/-- The chain ids repeated along the columns: entry (b, l, m) is the row token's chain id. -/
theorem chainRow_at (x : Ids) (b : Fin 2) (l m : Fin 768) :
    val_main_v2 (F := Ideal) x (ix3 b l m) = x (ix2 b l) :=
  (val_main_v2_apply x _).trans ((val_main_v0_apply x _).trans (congrArg x (ext2 rfl rfl)))

/-- The chain ids repeated along the rows: entry (b, l, m) is the column token's chain id. -/
theorem chainCol_at (x : Ids) (b : Fin 2) (l m : Fin 768) :
    val_main_v3 (F := Ideal) x (ix3 b l m) = x (ix2 b m) :=
  (val_main_v3_apply x _).trans ((val_main_v1_apply x _).trans (congrArg x (ext2 rfl rfl)))

/-- The residue ids repeated along the columns (the copy the residue test reads). -/
theorem resRow_at (x : Ids) (b : Fin 2) (l m : Fin 768) :
    val_main_v7 (F := Ideal) x (ix3 b l m) = x (ix2 b l) :=
  (val_main_v7_apply x _).trans ((val_main_v5_apply x _).trans (congrArg x (ext2 rfl rfl)))

/-- The residue ids repeated along the rows (the copy the residue test reads). -/
theorem resCol_at (x : Ids) (b : Fin 2) (l m : Fin 768) :
    val_main_v8 (F := Ideal) x (ix3 b l m) = x (ix2 b m) :=
  (val_main_v8_apply x _).trans ((val_main_v6_apply x _).trans (congrArg x (ext2 rfl rfl)))

/-- The entity ids repeated along the columns. -/
theorem entRow_at (x : Ids) (b : Fin 2) (l m : Fin 768) :
    val_main_v12 (F := Ideal) x (ix3 b l m) = x (ix2 b l) :=
  (val_main_v12_apply x _).trans ((val_main_v10_apply x _).trans (congrArg x (ext2 rfl rfl)))

/-- The entity ids repeated along the rows. -/
theorem entCol_at (x : Ids) (b : Fin 2) (l m : Fin 768) :
    val_main_v13 (F := Ideal) x (ix3 b l m) = x (ix2 b m) :=
  (val_main_v13_apply x _).trans ((val_main_v11_apply x _).trans (congrArg x (ext2 rfl rfl)))

/-- The residue ids repeated along the columns (the copy the residue offset reads). -/
theorem resRow'_at (x : Ids) (b : Fin 2) (l m : Fin 768) :
    val_main_v17 (F := Ideal) x (ix3 b l m) = x (ix2 b l) :=
  (val_main_v17_apply x _).trans ((val_main_v15_apply x _).trans (congrArg x (ext2 rfl rfl)))

/-- The residue ids repeated along the rows (the copy the residue offset reads). -/
theorem resCol'_at (x : Ids) (b : Fin 2) (l m : Fin 768) :
    val_main_v18 (F := Ideal) x (ix3 b l m) = x (ix2 b m) :=
  (val_main_v18_apply x _).trans ((val_main_v16_apply x _).trans (congrArg x (ext2 rfl rfl)))

/-- The token ids repeated along the columns. -/
theorem tokRow_at (x : Ids) (b : Fin 2) (l m : Fin 768) :
    val_main_v40 (F := Ideal) x (ix3 b l m) = x (ix2 b l) :=
  (val_main_v40_apply x _).trans ((val_main_v38_apply x _).trans (congrArg x (ext2 rfl rfl)))

/-- The token ids repeated along the rows. -/
theorem tokCol_at (x : Ids) (b : Fin 2) (l m : Fin 768) :
    val_main_v41 (F := Ideal) x (ix3 b l m) = x (ix2 b m) :=
  (val_main_v41_apply x _).trans ((val_main_v39_apply x _).trans (congrArg x (ext2 rfl rfl)))

/-- The symmetry-copy ids repeated along the columns. -/
theorem symRow_at (x : Ids) (b : Fin 2) (l m : Fin 768) :
    val_main_v51 (F := Ideal) x (ix3 b l m) = x (ix2 b l) :=
  (val_main_v51_apply x _).trans ((val_main_v49_apply x _).trans (congrArg x (ext2 rfl rfl)))

/-- The symmetry-copy ids repeated along the rows. -/
theorem symCol_at (x : Ids) (b : Fin 2) (l m : Fin 768) :
    val_main_v52 (F := Ideal) x (ix3 b l m) = x (ix2 b m) :=
  (val_main_v52_apply x _).trans ((val_main_v50_apply x _).trans (congrArg x (ext2 rfl rfl)))

/-- The period array with every entry that is not positive replaced by 10000 is `period` of the entry. -/
theorem period_at (x3 : Ids) (j : (⟨2, ![2, 768]⟩ : Shape).Idx) : val_main_v22 (F := Ideal) x3 j = period (x3 j) := rfl

/-- The periods given a unit row axis: entry (b, 0, m) is the column token's period. -/
theorem periodUnit_at (x3 : Ids) (b : Fin 2) (r : Fin 1) (m : Fin 768) :
    val_main_v23 (F := Ideal) x3 (ix3 b r m) = period (x3 (ix2 b m)) :=
  by
  rw [val_main_v23_apply, show idx_main_v23 (ix3 b r m) = ix2 b m from ext2 rfl rfl, period_at]

/-- The periods repeated along the rows: entry (b, l, m) is the column token's period. -/
theorem periodCol_at (x3 : Ids) (b : Fin 2) (l m : Fin 768) :
    val_main_v30 (F := Ideal) x3 (ix3 b l m) = period (x3 (ix2 b m)) :=
  by
  rw [val_main_v30_apply, show idx_main_v30 (ix3 b l m) = ix3 b (0 : Fin 1) m from ext3 rfl rfl rfl, periodUnit_at]

/-- The periods as reals, repeated along the rows: entry (b, l, m) is the column token's period as a real. -/
theorem periodColReal_at (x3 : Ids) (b : Fin 2) (l m : Fin 768) :
    val_main_v26 (F := Ideal) x3 (ix3 b l m) = FloatOps.sitofp (F := Ideal) .f32 (period (x3 (ix2 b m))) := by
  rw [val_main_v26_apply, show idx_main_v26 (ix3 b l m) = ix3 b (0 : Fin 1) m from ext3 rfl rfl rfl, val_main_v25_apply,
    periodUnit_at]

/-! ## 2. The integer stages at (b, l, m) -/

/-- The chain test at (b, l, m) compares the two tokens' chain ids. -/
theorem sameChain_at (x0 : Ids) (b : Fin 2) (l m : Fin 768) :
    val_main_v4 (F := Ideal) x0 (ix3 b l m) = IntOp.cmpi .eq (x0 (ix2 b l)) (x0 (ix2 b m)) := by
  rw [val_main_v4_apply, chainRow_at, chainCol_at]

/-- The residue test at (b, l, m) compares the two tokens' residue ids. -/
theorem sameRes_at (x1 : Ids) (b : Fin 2) (l m : Fin 768) :
    val_main_v9 (F := Ideal) x1 (ix3 b l m) = IntOp.cmpi .eq (x1 (ix2 b l)) (x1 (ix2 b m)) := by
  rw [val_main_v9_apply, resRow_at, resCol_at]

/-- The entity test at (b, l, m) compares the two tokens' entity ids. -/
theorem sameEnt_at (x2 : Ids) (b : Fin 2) (l m : Fin 768) :
    val_main_v14 (F := Ideal) x2 (ix3 b l m) = IntOp.cmpi .eq (x2 (ix2 b l)) (x2 (ix2 b m)) := by
  rw [val_main_v14_apply, entRow_at, entCol_at]

/-- The residue offset at (b, l, m) is the difference of the two tokens' residue ids. -/
theorem resDiff_at (x1 : Ids) (b : Fin 2) (l m : Fin 768) :
    val_main_v19 (F := Ideal) x1 (ix3 b l m) = IntOp.subi (x1 (ix2 b l)) (x1 (ix2 b m)) := by
  rw [val_main_v19_apply, resRow'_at, resCol'_at]

/-- The residue offset reduced modulo the column's period: the difference less the period times the rounded quotient,
    which is the specification's `relPos` term by term. -/
theorem relPos_at (x1 x3 : Ids) (b : Fin 2) (l m : Fin 768) :
    val_main_v32 (F := Ideal) x1 x3 (ix3 b l m) = relPos (x1 (ix2 b l)) (x1 (ix2 b m)) (x3 (ix2 b m)) := by
  rw [val_main_v32_apply, val_main_v31_apply, val_main_v29_apply, val_main_v28_apply, val_main_v27_apply,
    val_main_v24_apply, resDiff_at, periodCol_at, periodColReal_at]
  rfl

/-- The residue bin at (b, l, m): the reduced offset shifted by 32 and clipped to [0, 64] on one chain, else 65. -/
theorem dRes_at (x0 x1 x3 : Ids) (b : Fin 2) (l m : Fin 768) :
    val_main_v36 (F := Ideal) x0 x1 x3 (ix3 b l m)
      = dRes (x0 (ix2 b l)) (x0 (ix2 b m)) (x1 (ix2 b l)) (x1 (ix2 b m)) (x3 (ix2 b m)) := by
  rw [val_main_v36_apply, val_main_v35_apply, val_main_call2_v2_apply, val_main_v34_apply, sameChain_at, relPos_at]
  rfl

/-- The token bin at (b, l, m): the token offset shifted by 32 and clipped to [0, 64] inside one residue of one chain,
    else 65. -/
theorem dTok_at (x0 x1 x4 : Ids) (b : Fin 2) (l m : Fin 768) :
    val_main_v47 (F := Ideal) x0 x1 x4 (ix3 b l m)
      = dTok (x0 (ix2 b l)) (x0 (ix2 b m)) (x1 (ix2 b l)) (x1 (ix2 b m)) (x4 (ix2 b l)) (x4 (ix2 b m)) := by
  rw [val_main_v47_apply, val_main_v46_apply, val_main_v45_apply, val_main_call5_v2_apply, val_main_v44_apply,
    val_main_v42_apply, sameChain_at, sameRes_at, tokRow_at, tokCol_at]
  rfl

/-- The chain bin at (b, l, m): 5 on one chain, else the offset of the symmetry copies shifted by 2 and clipped to
    [0, 4]. -/
theorem dChain_at (x0 x5 : Ids) (b : Fin 2) (l m : Fin 768) :
    val_main_v57 (F := Ideal) x0 x5 (ix3 b l m)
      = dChain (x0 (ix2 b l)) (x0 (ix2 b m)) (x5 (ix2 b l)) (x5 (ix2 b m)) := by
  rw [val_main_v57_apply, val_main_v56_apply, val_main_call8_v2_apply, val_main_v55_apply, val_main_v53_apply,
    sameChain_at, symRow_at, symCol_at]
  rfl

/-! ## 3. The rows of zeros and ones at (b, l, m, k)

A bin is given a unit feature axis, repeated along it, and compared with the feature's number k; the comparison's bit
as a real is the indicator that the bin is the k-th. -/

/-- The residue bin's row of zeros and ones. -/
theorem hotRes_at (x0 x1 x3 : Ids) (b : Fin 2) (l m : Fin 768) (k : Fin 66) :
    val_main_v37 (F := Ideal) x0 x1 x3 (ix4 b l m k)
      = hot (dRes (x0 (ix2 b l)) (x0 (ix2 b m)) (x1 (ix2 b l)) (x1 (ix2 b m)) (x3 (ix2 b m))) k.val := by
  rw [val_main_v37_apply, val_main_call4_v4_apply, val_main_call4_v2_apply, val_main_call4_v0_apply,
    val_main_call4_v3_apply, val_main_call4_v1_apply,
    show idx_main_call4_v0 (idx_main_call4_v2 (ix4 b l m k)) = ix3 b l m from ext3 rfl rfl rfl, dRes_at]
  rfl

/-- The token bin's row of zeros and ones. -/
theorem hotTok_at (x0 x1 x4 : Ids) (b : Fin 2) (l m : Fin 768) (k : Fin 66) :
    val_main_v48 (F := Ideal) x0 x1 x4 (ix4 b l m k)
      = hot (dTok (x0 (ix2 b l)) (x0 (ix2 b m)) (x1 (ix2 b l)) (x1 (ix2 b m)) (x4 (ix2 b l)) (x4 (ix2 b m))) k.val := by
  rw [val_main_v48_apply, val_main_call7_v4_apply, val_main_call7_v2_apply, val_main_call7_v0_apply,
    val_main_call7_v3_apply, val_main_call7_v1_apply,
    show idx_main_call7_v0 (idx_main_call7_v2 (ix4 b l m k)) = ix3 b l m from ext3 rfl rfl rfl, dTok_at]
  rfl

/-- The chain bin's row of zeros and ones. -/
theorem hotChain_at (x0 x5 : Ids) (b : Fin 2) (l m : Fin 768) (k : Fin 6) :
    val_main_v58 (F := Ideal) x0 x5 (ix4 b l m k)
      = hot (dChain (x0 (ix2 b l)) (x0 (ix2 b m)) (x5 (ix2 b l)) (x5 (ix2 b m))) k.val := by
  rw [val_main_v58_apply, val_main_call10_v4_apply, val_main_call10_v2_apply, val_main_call10_v0_apply,
    val_main_call10_v3_apply, val_main_call10_v1_apply,
    show idx_main_call10_v0 (idx_main_call10_v2 (ix4 b l m k)) = ix3 b l m from ext3 rfl rfl rfl, dChain_at]
  rfl

/-- The entity test's bit as a real, on its unit feature axis. -/
theorem indEnt_at (x2 : Ids) (b : Fin 2) (l m : Fin 768) (k : Fin 1) :
    val_main_v60 (F := Ideal) x2 (ix4 b l m k) = ind (IntOp.cmpi .eq (x2 (ix2 b l)) (x2 (ix2 b m))) := by
  rw [val_main_v60_apply, val_main_v59_apply,
    show idx_main_v59 (ix4 b l m k) = ix3 b l m from ext3 rfl rfl rfl, sameEnt_at]
  rfl

/-! ## 4. The four stretches of a concatenation along the feature axis

Four arrays of 66, 66, 1 and 6 features laid end to end: feature k below 66 is the first array's k-th, feature 66 + k
the second's k-th, feature 132 the third's only one, feature 133 + k the fourth's k-th. The coordinates off the
feature axis are kept. -/

section Stretches
variable {α : Type}

/-- Features 0..65 are the first piece. -/
theorem cat_first (p0 p1 : (⟨4, ![2, 768, 768, 66]⟩ : Shape).Idx → α) (p2 : (⟨4, ![2, 768, 768, 1]⟩ : Shape).Idx → α)
    (p3 : (⟨4, ![2, 768, 768, 6]⟩ : Shape).Idx → α)
    (h : Shape.Concatenates [(⟨4, ![2, 768, 768, 66]⟩ : Shape), ⟨4, ![2, 768, 768, 66]⟩, ⟨4, ![2, 768, 768, 1]⟩, ⟨4, ![2, 768, 768, 6]⟩]
      ⟨4, ![2, 768, 768, 139]⟩ 3)
    (b : Fin 2) (l m : Fin 768) (k : Fin 66) :
    concatenate (⟨4, ![2, 768, 768, 139]⟩ : Shape) 3 [⟨_, p0⟩, ⟨_, p1⟩, ⟨_, p2⟩, ⟨_, p3⟩] h (ix4 b l m (⟨k.val, by omega⟩ : Fin 139))
      = p0 (ix4 b l m k) := by
  refine concatenate_apply_piece (t := ⟨4, ![2, 768, 768, 139]⟩) (3 : Fin 4) [⟨_, p0⟩, ⟨_, p1⟩, ⟨_, p2⟩, ⟨_, p3⟩] h _ 0
    (by decide : 0 < 4) _ p0 rfl rfl 0 rfl (ix4 b l m k) ?_ ?_
  · intro c hc
    match c with
    | ⟨0, _⟩ => rfl
    | ⟨1, _⟩ => rfl
    | ⟨2, _⟩ => rfl
    | ⟨3, _⟩ => exact absurd rfl hc
  · exact Nat.zero_add _

/-- Features 66..131 are the second piece, after the 66 features before it. -/
theorem cat_second (p0 p1 : (⟨4, ![2, 768, 768, 66]⟩ : Shape).Idx → α) (p2 : (⟨4, ![2, 768, 768, 1]⟩ : Shape).Idx → α)
    (p3 : (⟨4, ![2, 768, 768, 6]⟩ : Shape).Idx → α)
    (h : Shape.Concatenates [(⟨4, ![2, 768, 768, 66]⟩ : Shape), ⟨4, ![2, 768, 768, 66]⟩, ⟨4, ![2, 768, 768, 1]⟩, ⟨4, ![2, 768, 768, 6]⟩]
      ⟨4, ![2, 768, 768, 139]⟩ 3)
    (b : Fin 2) (l m : Fin 768) (k : Fin 66) :
    concatenate (⟨4, ![2, 768, 768, 139]⟩ : Shape) 3 [⟨_, p0⟩, ⟨_, p1⟩, ⟨_, p2⟩, ⟨_, p3⟩] h (ix4 b l m (⟨66 + k.val, by omega⟩ : Fin 139))
      = p1 (ix4 b l m k) := by
  refine concatenate_apply_piece (t := ⟨4, ![2, 768, 768, 139]⟩) (3 : Fin 4) [⟨_, p0⟩, ⟨_, p1⟩, ⟨_, p2⟩, ⟨_, p3⟩] h _ 1
    (by decide : 1 < 4) _ p1 rfl rfl 66 rfl (ix4 b l m k) ?_ ?_
  · intro c hc
    match c with
    | ⟨0, _⟩ => rfl
    | ⟨1, _⟩ => rfl
    | ⟨2, _⟩ => rfl
    | ⟨3, _⟩ => exact absurd rfl hc
  · rfl

/-- Feature 132 is the third piece's only feature, after the 132 features before it. -/
theorem cat_third (p0 p1 : (⟨4, ![2, 768, 768, 66]⟩ : Shape).Idx → α) (p2 : (⟨4, ![2, 768, 768, 1]⟩ : Shape).Idx → α)
    (p3 : (⟨4, ![2, 768, 768, 6]⟩ : Shape).Idx → α)
    (h : Shape.Concatenates [(⟨4, ![2, 768, 768, 66]⟩ : Shape), ⟨4, ![2, 768, 768, 66]⟩, ⟨4, ![2, 768, 768, 1]⟩, ⟨4, ![2, 768, 768, 6]⟩]
      ⟨4, ![2, 768, 768, 139]⟩ 3)
    (b : Fin 2) (l m : Fin 768) :
    concatenate (⟨4, ![2, 768, 768, 139]⟩ : Shape) 3 [⟨_, p0⟩, ⟨_, p1⟩, ⟨_, p2⟩, ⟨_, p3⟩] h (ix4 b l m (⟨132, by omega⟩ : Fin 139))
      = p2 (ix4 b l m (0 : Fin 1)) := by
  refine concatenate_apply_piece (t := ⟨4, ![2, 768, 768, 139]⟩) (3 : Fin 4) [⟨_, p0⟩, ⟨_, p1⟩, ⟨_, p2⟩, ⟨_, p3⟩] h _ 2
    (by decide : 2 < 4) _ p2 rfl rfl 132 rfl (ix4 b l m (0 : Fin 1)) ?_ ?_
  · intro c hc
    match c with
    | ⟨0, _⟩ => rfl
    | ⟨1, _⟩ => rfl
    | ⟨2, _⟩ => rfl
    | ⟨3, _⟩ => exact absurd rfl hc
  · rfl

/-- Features 133..138 are the fourth piece, after the 133 features before it. -/
theorem cat_fourth (p0 p1 : (⟨4, ![2, 768, 768, 66]⟩ : Shape).Idx → α) (p2 : (⟨4, ![2, 768, 768, 1]⟩ : Shape).Idx → α)
    (p3 : (⟨4, ![2, 768, 768, 6]⟩ : Shape).Idx → α)
    (h : Shape.Concatenates [(⟨4, ![2, 768, 768, 66]⟩ : Shape), ⟨4, ![2, 768, 768, 66]⟩, ⟨4, ![2, 768, 768, 1]⟩, ⟨4, ![2, 768, 768, 6]⟩]
      ⟨4, ![2, 768, 768, 139]⟩ 3)
    (b : Fin 2) (l m : Fin 768) (k : Fin 6) :
    concatenate (⟨4, ![2, 768, 768, 139]⟩ : Shape) 3 [⟨_, p0⟩, ⟨_, p1⟩, ⟨_, p2⟩, ⟨_, p3⟩] h (ix4 b l m (⟨133 + k.val, by omega⟩ : Fin 139))
      = p3 (ix4 b l m k) := by
  refine concatenate_apply_piece (t := ⟨4, ![2, 768, 768, 139]⟩) (3 : Fin 4) [⟨_, p0⟩, ⟨_, p1⟩, ⟨_, p2⟩, ⟨_, p3⟩] h _ 3
    (by decide : 3 < 4) _ p3 rfl rfl 133 rfl (ix4 b l m k) ?_ ?_
  · intro c hc
    match c with
    | ⟨0, _⟩ => rfl
    | ⟨1, _⟩ => rfl
    | ⟨2, _⟩ => rfl
    | ⟨3, _⟩ => exact absurd rfl hc
  · rfl

end Stretches

/-- The feature row at a feature below 66 is the residue bin's indicator. -/
theorem featRes_at (x0 x1 x2 x3 x4 x5 : Ids) (b : Fin 2) (l m : Fin 768) (k : Fin 66) :
    val_main_v61 (F := Ideal) x0 x1 x2 x3 x4 x5 (ix4 b l m (⟨k.val, by omega⟩ : Fin 139))
      = hot (dRes (x0 (ix2 b l)) (x0 (ix2 b m)) (x1 (ix2 b l)) (x1 (ix2 b m)) (x3 (ix2 b m))) k.val := by
  unfold val_main_v61
  exact (cat_first _ _ _ _ _ b l m k).trans (hotRes_at x0 x1 x3 b l m k)

/-- The feature row at feature 66 + k is the token bin's indicator. -/
theorem featTok_at (x0 x1 x2 x3 x4 x5 : Ids) (b : Fin 2) (l m : Fin 768) (k : Fin 66) :
    val_main_v61 (F := Ideal) x0 x1 x2 x3 x4 x5 (ix4 b l m (⟨66 + k.val, by omega⟩ : Fin 139))
      = hot (dTok (x0 (ix2 b l)) (x0 (ix2 b m)) (x1 (ix2 b l)) (x1 (ix2 b m)) (x4 (ix2 b l)) (x4 (ix2 b m))) k.val := by
  unfold val_main_v61
  exact (cat_second _ _ _ _ _ b l m k).trans (hotTok_at x0 x1 x4 b l m k)

/-- The feature row at feature 132 is the entity test. -/
theorem featEnt_at (x0 x1 x2 x3 x4 x5 : Ids) (b : Fin 2) (l m : Fin 768) :
    val_main_v61 (F := Ideal) x0 x1 x2 x3 x4 x5 (ix4 b l m (⟨132, by omega⟩ : Fin 139))
      = ind (IntOp.cmpi .eq (x2 (ix2 b l)) (x2 (ix2 b m))) := by
  unfold val_main_v61
  exact (cat_third _ _ _ _ _ b l m).trans (indEnt_at x2 b l m 0)

/-- The feature row at feature 133 + k is the chain bin's indicator. -/
theorem featChain_at (x0 x1 x2 x3 x4 x5 : Ids) (b : Fin 2) (l m : Fin 768) (k : Fin 6) :
    val_main_v61 (F := Ideal) x0 x1 x2 x3 x4 x5 (ix4 b l m (⟨133 + k.val, by omega⟩ : Fin 139))
      = hot (dChain (x0 (ix2 b l)) (x0 (ix2 b m)) (x5 (ix2 b l)) (x5 (ix2 b m))) k.val := by
  unfold val_main_v61
  exact (cat_fourth _ _ _ _ _ b l m k).trans (hotChain_at x0 x5 b l m k)

/-! ## 5. The contraction with the table -/

/-- The term of the contraction at feature k: the feature row at (b, l, m, k) times the table at (k, z). -/
theorem term_at (x0 x1 x2 x3 x4 x5 : Ids) (x6 : Tbl) (b : Fin 2) (l m : Fin 768) (z : Fin 128) (k : Fin 139) :
    val_main_v61 (F := Ideal) x0 x1 x2 x3 x4 x5 (lidx_main_v62 (ix4 b l m z) k) * x6 (ridx_main_v62 (ix4 b l m z) k)
      = val_main_v61 (F := Ideal) x0 x1 x2 x3 x4 x5 (ix4 b l m k) * x6 (ix2 k z) := by
  rw [show lidx_main_v62 (ix4 b l m z) k = ix4 b l m k from ext4 rfl rfl rfl rfl,
    show ridx_main_v62 (ix4 b l m z) k = ix2 k z from ext2 rfl rfl]

/-- THE REFERENCE AT AN INDEX: the sum over the 139 features, cut into the residue stretch, the token stretch, the chain
    stretch and the entity feature, is the specification's entry. -/
theorem ref_apply (x0 x1 x2 x3 x4 x5 : Ids) (x6 : Tbl) (b : Fin 2) (l m : Fin 768) (z : Fin 128) :
    Cert.ReferenceIdeal.ReadP.val_main_v62 (F := Ideal) x0 x1 x2 x3 x4 x5 x6 (ix4 b l m z)
      = entry x0 x1 x2 x3 x4 x5 x6 b l m z := by
  rw [val_main_v62_apply, Finset.sum_congr rfl (fun k _ => term_at x0 x1 x2 x3 x4 x5 x6 b l m z k), sum_split139]
  unfold entry entryOf
  refine congrArg₂ (· + ·) (congrArg₂ (· + ·) (congrArg₂ (· + ·) ?_ ?_) ?_) ?_
  · exact Finset.sum_congr rfl fun k _ => congrArg (· * _) (featRes_at x0 x1 x2 x3 x4 x5 b l m k)
  · exact Finset.sum_congr rfl fun k _ => congrArg (· * _) (featTok_at x0 x1 x2 x3 x4 x5 b l m k)
  · exact Finset.sum_congr rfl fun k _ => congrArg (· * _) (featChain_at x0 x1 x2 x3 x4 x5 b l m k)
  · exact congrArg (· * _) (featEnt_at x0 x1 x2 x3 x4 x5 b l m)

/-- THE REFERENCE IS THE ENCODING: every index is (b, l, m, z) of its coordinates. -/
theorem ref_eq (x0 x1 x2 x3 x4 x5 : Ids) (x6 : Tbl) :
    Cert.ReferenceIdeal.ReadP.val_main_v62 (F := Ideal) x0 x1 x2 x3 x4 x5 x6 = encoding x0 x1 x2 x3 x4 x5 x6 := by
  funext j
  rw [eq_ix4 j]
  exact (ref_apply x0 x1 x2 x3 x4 x5 x6 (j 0) (j 1) (j 2) (j 3)).trans (encoding_ix4 x0 x1 x2 x3 x4 x5 x6 _ _ _ _).symm

end Cert.RelPos.Ref

end
-- ==== Proof.BodyValue.lean ====
/-
  What the kernel's body leaves in the output block, as ONE term of the twelve input blocks.

  The body stores the whole output block four times. The first store writes the residue group's product; each later
  store reads the block back and adds its own term (the token group's product, the chain group's product, the
  entity row scaled by the entity indicator). So the block ends at

      ((res + tok) + chain) + ent

  where each summand is a payload of the loaded input blocks. Every store covers the whole block, so what a later load
  reads back is exactly what the store before it wrote, and the last store alone decides the final contents.
-/
import proofs.«108437_j69999376990394_1_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A load of the whole block after a whole-block store (whatever was stored before it) reads that store's payload. -/
theorem readCov_cons_whole {sig : RefSig} {κ : Kind} {sp : Space} {S : Shape} {e : EltTy} {Val : EltTy → Type}
    [∀ e, Nonempty (Val e)] (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

/-- Rows `o .. o + n - 1` of the staged weight table, as the load through that rectangle reads them. -/
abbrev rowsW (x11 : Vec F S139x128 .f32) (o : Nat) (n : Nat) (inb : ∀ a, (![o, 0] : Fin 2 → Nat) a + (![n, 128] : Fin 2 → Nat) a ≤ S139x128.size a) :
    (Rect.unit (s := S139x128) ![o, 0] ![n, 128] inb).shape.Idx → Elt F .f32 :=
  View.ld x11 (Rect.unit (s := S139x128) ![o, 0] ![n, 128] inb)

/-- The same-chain mask of the tile (row chain ids against column chain ids). -/
abbrev sameChain (x0 : Vec F S1x64x1 .i32) (x1 : Vec F S1x1x128 .i32) : IVec S64x128 1 := k0_pay3 x0 x1

/-- The residue group's product: one-hot of the residue bin times rows 0..65 of the table. -/
def resTerm (x0 : Vec F S1x64x1 .i32) (x1 : Vec F S1x1x128 .i32) (x2 : Vec F S1x64x1 .i32) (x3 : Vec F S1x1x128 .i32)
    (x10 : Vec F S1x1x128 .i32) (x11 : Vec F S139x128 .f32) : FVec F S1x64x128x128 .f32 :=
  k0_pay9 (sameChain x0 x1) (k0_pay7 x2 x3 x10) k0_pay8 (rowsW x11 0 66 inb_S139x128_S66x128_0_0)

/-- The block after the second store: the residue product plus the token group's product (rows 66..131). -/
def resTokTerm (x0 : Vec F S1x64x1 .i32) (x1 : Vec F S1x1x128 .i32) (x2 : Vec F S1x64x1 .i32) (x3 : Vec F S1x1x128 .i32)
    (x6 : Vec F S1x64x1 .i32) (x7 : Vec F S1x1x128 .i32) (x10 : Vec F S1x1x128 .i32) (x11 : Vec F S139x128 .f32) :
    FVec F S1x64x128x128 .f32 :=
  k0_pay11 (k0_pay10 (sameChain x0 x1) (k0_pay6 x2 x3) x6 x7) (rowsW x11 66 66 inb_S139x128_S66x128_66_0)
    (resTerm x0 x1 x2 x3 x10 x11)

/-- The block after the third store: plus the chain group's product (rows 133..138). -/
def resTokChainTerm (x0 : Vec F S1x64x1 .i32) (x1 : Vec F S1x1x128 .i32) (x2 : Vec F S1x64x1 .i32) (x3 : Vec F S1x1x128 .i32)
    (x6 : Vec F S1x64x1 .i32) (x7 : Vec F S1x1x128 .i32) (x8 : Vec F S1x64x1 .i32) (x9 : Vec F S1x1x128 .i32)
    (x10 : Vec F S1x1x128 .i32) (x11 : Vec F S139x128 .f32) : FVec F S1x64x128x128 .f32 :=
  k0_pay1 (k0_pay12 (sameChain x0 x1) x8 x9) (k0_pay13 (rowsW x11 133 6 inb_S139x128_S6x128_133_0))
    (constant S8192x128 .f32 0x00000000#32) (resTokTerm x0 x1 x2 x3 x6 x7 x10 x11)

/-- THE BODY'S RESULT: the block after the fourth store, plus the entity indicator times row 132. -/
def bodyTerm (x0 : Vec F S1x64x1 .i32) (x1 : Vec F S1x1x128 .i32) (x2 : Vec F S1x64x1 .i32) (x3 : Vec F S1x1x128 .i32) (x4 : Vec F S1x64x1 .i32) (x5 : Vec F S1x1x128 .i32) (x6 : Vec F S1x64x1 .i32) (x7 : Vec F S1x1x128 .i32) (x8 : Vec F S1x64x1 .i32) (x9 : Vec F S1x1x128 .i32) (x10 : Vec F S1x1x128 .i32) (x11 : Vec F S139x128 .f32) : FVec F S1x64x128x128 .f32 :=
  k0_pay2 x4 x5 (rowsW x11 132 1 inb_S139x128_S1x128_132_0) (resTokChainTerm x0 x1 x2 x3 x6 x7 x8 x9 x10 x11)

/-- The pieces the body's run found, read back over anything, are the body's result: the last store covers the block,
    and each read-back inside it reads the covering store before it. -/
theorem out_eq (c : Dev nD) (i : grid0.Coords) (arg3 : Memref sig .tc .vmem S1x64x1 .i32) (harg3 : arg3.IsWhole) (arg4 : Memref sig .tc .vmem S1x1x128 .i32) (harg4 : arg4.IsWhole) (arg5 : Memref sig .tc .vmem S1x64x1 .i32) (harg5 : arg5.IsWhole) (arg6 : Memref sig .tc .vmem S1x1x128 .i32) (harg6 : arg6.IsWhole) (arg7 : Memref sig .tc .vmem S1x64x1 .i32) (harg7 : arg7.IsWhole) (arg8 : Memref sig .tc .vmem S1x1x128 .i32) (harg8 : arg8.IsWhole) (arg9 : Memref sig .tc .vmem S1x64x1 .i32) (harg9 : arg9.IsWhole) (arg10 : Memref sig .tc .vmem S1x1x128 .i32) (harg10 : arg10.IsWhole) (arg11 : Memref sig .tc .vmem S1x64x1 .i32) (harg11 : arg11.IsWhole) (arg12 : Memref sig .tc .vmem S1x1x128 .i32) (harg12 : arg12.IsWhole) (arg13 : Memref sig .tc .vmem S1x1x128 .i32) (harg13 : arg13.IsWhole) (arg14 : Memref sig .tc .vmem S139x128 .f32) (harg14 : arg14.IsWhole) (arg15 : Memref sig .tc .vmem S1x64x128x128 .f32) (harg15 : arg15.IsWhole)
    (x0 : Vec F S1x64x1 .i32) (x1 : Vec F S1x1x128 .i32) (x2 : Vec F S1x64x1 .i32) (x3 : Vec F S1x1x128 .i32) (x4 : Vec F S1x64x1 .i32) (x5 : Vec F S1x1x128 .i32) (x6 : Vec F S1x64x1 .i32) (x7 : Vec F S1x1x128 .i32) (x8 : Vec F S1x64x1 .i32) (x9 : Vec F S1x1x128 .i32) (x10 : Vec F S1x1x128 .i32) (x11 : Vec F S139x128 .f32) :
    out0_A_12 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 = bodyTerm x0 x1 x2 x3 x4 x5 x6 x7 x8 x9 x10 x11 := by
  unfold out0_A_12
  rw [View.read_writes_eq_canon _ _ _ (cover0_A_12 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11)]
  unfold kernelRun0_A
  dsimp only
  sl_unfold_words
  rw [View.canon_cons_unit_zero (S := S1x64x128x128) hz4]
  simp only [readCov_cons_whole (S := S1x64x128x128) _ hz4, View.readAt_eq_ld,
    harg3.read_unread, harg4.read_unread, harg5.read_unread, harg6.read_unread, harg7.read_unread, harg8.read_unread,
    harg9.read_unread, harg10.read_unread, harg11.read_unread, harg12.read_unread, harg13.read_unread, harg14.read_unread,
    View.ld_unit_zero (S := S1x64x1) hz3, View.ld_unit_zero (S := S1x1x128) hz3]
  rfl

end Cert.KernelIdeal.Body

end
-- ==== Proof.BodyEntry.lean ====
/-
  The kernel body's result block, read at one index, is the specification's entry.

  The body builds three integer tiles over (row token p, column token q) from the row and column id blocks — the
  same-chain mask, the same-residue mask, and the residue offset reduced by the column's period and shifted by 32 — and
  from them three bins (residue, token, chain). Each bin is turned into a one-hot matrix whose row p * 128 + q holds the
  indicator "the bin at (p, q) is k" in column k, and multiplied with the matching rows of the weight table; the
  fourth term is the entity indicator times row 132. A matrix product into the zero block, read at (row, z), is the
  sum over the columns k of the one-hot entry times the table's entry at (offset + k, z); the layout operations between
  (viewing a block under another shape, spreading a row or a column over a tile) only move indices. So at (0, p, q, z)
  the block is

      ((sum_k hot(dRes) k * W[k, z] + sum_k hot(dTok) k * W[66 + k, z]) + sum_k hot(dChain) k * W[133 + k, z])
        + ind(entity p = entity q) * W[132, z]

  with the summands in the order the body adds them, which is the order the specification's entry is written in.
-/
import proofs.«108437_j69999376990394_1_alg».proof.Proof.BodyValue
import proofs.«108437_j69999376990394_1_alg».proof.Proof.Spec
import Idealize.ShloMosaic.Lib.ValueLayout
import Idealize.ShloMosaic.Lib.Pipeline.Value

noncomputable section

namespace Cert.KernelIdeal.Body

open Cert.RelPos Cert.KernelIdeal Cert.KernelIdeal.Gen Idealize.ShloMosaic Idealize.ShloMosaic.ValueIdx

/-! ## Rows and columns spread over the tile, and the three integer tiles -/

/-- A row block [1, 64, 1] viewed as a column [64, 1] and spread over the 128 columns reads the row's entry. -/
theorem rowSpread_apply (x : Vec Ideal S1x64x1 .i32) (p : Fin 64) (q : Fin 128) :
    broadcastTo S64x128 (shapeCast S64x1 x shapeCasts_S1x64x1_S64x1) broadcasts_S64x1_S64x128 (ix2 p q)
      = x (ix3 (0 : Fin 1) p (0 : Fin 1)) := by
  refine (broadcastTo_apply _ broadcasts_S64x1_S64x128 (ix2 p q) (ix2 p (0 : Fin 1)) fun a => ?_).trans ?_
  · match a with
    | ⟨0, _⟩ => rfl
    | ⟨1, _⟩ => rfl
  · exact shapeCast_1ab_ab_apply x shapeCasts_S1x64x1_S64x1 p (0 : Fin 1)

/-- A column block [1, 1, 128] viewed as a row [1, 128] and spread over the 64 rows reads the column's entry. -/
theorem colSpread_apply (x : Vec Ideal S1x1x128 .i32) (p : Fin 64) (q : Fin 128) :
    broadcastTo S64x128 (shapeCast S1x128 x shapeCasts_S1x1x128_S1x128) broadcasts_S1x128_S64x128 (ix2 p q)
      = x (ix3 (0 : Fin 1) (0 : Fin 1) q) :=
  (broadcastTo_1b_ab_apply _ broadcasts_S1x128_S64x128 p q).trans
    (shapeCast_1ab_ab_apply x shapeCasts_S1x1x128_S1x128 (0 : Fin 1) q)

/-- The same-chain mask at (p, q) compares the row's chain id with the column's. -/
theorem pay3_apply (x0 : Vec Ideal S1x64x1 .i32) (x1 : Vec Ideal S1x1x128 .i32) (p : Fin 64) (q : Fin 128) :
    k0_pay3 (F := Ideal) x0 x1 (ix2 p q) = IntOp.cmpi .eq (x0 (ix3 (0 : Fin 1) p (0 : Fin 1))) (x1 (ix3 (0 : Fin 1) (0 : Fin 1) q)) := by
  unfold k0_pay3
  exact congrArg₂ (IntOp.cmpi .eq) (rowSpread_apply x0 p q) (colSpread_apply x1 p q)

theorem pay6_apply (x2 : Vec Ideal S1x64x1 .i32) (x3 : Vec Ideal S1x1x128 .i32) (p : Fin 64) (q : Fin 128) :
    k0_pay6 (F := Ideal) x2 x3 (ix2 p q) = IntOp.cmpi .eq (x2 (ix3 (0 : Fin 1) p (0 : Fin 1))) (x3 (ix3 (0 : Fin 1) (0 : Fin 1) q)) := by
  unfold k0_pay6 k0_pay4 k0_pay5
  exact congrArg₂ (IntOp.cmpi .eq) (rowSpread_apply x2 p q) (colSpread_apply x3 p q)

/-- The clipped-from-below shifted residue offset of a tile whose row, column and period entries are known. -/
theorem shiftedOffset_apply (R C : IVec S64x128 32) (P : IVec S1x128 32) (p : Fin 64) (q : Fin 128) (rr rc per : BitVec 32)
    (hR : R (ix2 p q) = rr) (hC : C (ix2 p q) = rc) (hP : P (ix2 (0 : Fin 1) q) = per) :
    maxsi (broadcast S64x128 0#32)
      (addi (subi (subi R C) (muli (broadcastTo S64x128 P broadcasts_S1x128_S64x128)
        (fptosi 32 (roundeven (divf (sitofp (F := Ideal) .f32 (subi R C))
          (broadcastTo S64x128 (sitofp (F := Ideal) .f32 P) broadcasts_S1x128_S64x128))))))
        (broadcast S64x128 32#32)) (ix2 p q)
    = IntOp.maxsi 0#32 (IntOp.addi (IntOp.subi (IntOp.subi rr rc) (IntOp.muli per
        (FloatOps.fptosi (F := Ideal) (φ := .f32) 32 (FloatOps.roundeven (F := Ideal) (φ := .f32)
          (FloatOps.divf (F := Ideal) (φ := .f32) (FloatOps.sitofp (F := Ideal) .f32 (IntOp.subi rr rc))
            (FloatOps.sitofp (F := Ideal) .f32 per)))))) 32#32) := by
  have hB : broadcastTo S64x128 P broadcasts_S1x128_S64x128 (ix2 p q) = per :=
    (broadcastTo_1b_ab_apply P broadcasts_S1x128_S64x128 p q).trans hP
  have hBf : broadcastTo S64x128 (sitofp (F := Ideal) .f32 P) broadcasts_S1x128_S64x128 (ix2 p q)
      = FloatOps.sitofp (F := Ideal) .f32 per :=
    (broadcastTo_1b_ab_apply _ broadcasts_S1x128_S64x128 p q).trans (congrArg (FloatOps.sitofp (F := Ideal) .f32) hP)
  show IntOp.maxsi 0#32 (IntOp.addi (IntOp.subi (IntOp.subi (R (ix2 p q)) (C (ix2 p q)))
      (IntOp.muli (broadcastTo S64x128 P broadcasts_S1x128_S64x128 (ix2 p q))
        (FloatOps.fptosi (F := Ideal) (φ := .f32) 32 (FloatOps.roundeven (F := Ideal) (φ := .f32)
          (FloatOps.divf (F := Ideal) (φ := .f32) (FloatOps.sitofp (F := Ideal) .f32 (IntOp.subi (R (ix2 p q)) (C (ix2 p q))))
            (broadcastTo S64x128 (sitofp (F := Ideal) .f32 P) broadcasts_S1x128_S64x128 (ix2 p q))))))) 32#32) = _
  rw [hR, hC, hB, hBf]

/-- The period row at column q: the column's cyclic period where positive, else 10000. -/
theorem periodRow_apply (x10 : Vec Ideal S1x1x128 .i32) (q : Fin 128) :
    select (cmpi .sgt (shapeCast S1x128 x10 shapeCasts_S1x1x128_S1x128) (broadcast S1x128 0#32))
        (shapeCast S1x128 x10 shapeCasts_S1x1x128_S1x128) (broadcast S1x128 10000#32) (ix2 (0 : Fin 1) q)
      = period (x10 (ix3 (0 : Fin 1) (0 : Fin 1) q)) :=
  congrArg (fun c : BitVec 32 => Scalar.select (IntOp.cmpi .sgt c 0#32) c 10000#32)
    (shapeCast_1ab_ab_apply x10 shapeCasts_S1x1x128_S1x128 (0 : Fin 1) q)

/-- The residue tile at (p, q): the residue offset reduced by the period, shifted by 32, clipped from below at 0. -/
theorem pay7_apply (x2 : Vec Ideal S1x64x1 .i32) (x3 x10 : Vec Ideal S1x1x128 .i32) (p : Fin 64) (q : Fin 128) :
    k0_pay7 (F := Ideal) x2 x3 x10 (ix2 p q)
      = IntOp.maxsi 0#32 (IntOp.addi (relPos (x2 (ix3 (0 : Fin 1) p (0 : Fin 1))) (x3 (ix3 (0 : Fin 1) (0 : Fin 1) q))
          (x10 (ix3 (0 : Fin 1) (0 : Fin 1) q))) 32#32) := by
  unfold k0_pay7 k0_pay4 k0_pay5
  exact shiftedOffset_apply _ _ _ p q _ _ _ (rowSpread_apply x2 p q) (colSpread_apply x3 p q) (periodRow_apply x10 q)

/-- A tile [64, 128] given a trailing unit axis and spread along a new last axis of extent K reads the tile's entry. -/
theorem lastSpread_apply {α : Type} {K : ℕ} (d : S64x128.Idx → α) (h : S64x128x1.Broadcasts ⟨3, ![64, 128, K]⟩)
    (p : Fin 64) (q : Fin 128) (k : Fin K) :
    broadcastTo ⟨3, ![64, 128, K]⟩ (shapeCast S64x128x1 d shapeCasts_S64x128_S64x128x1) h (ix3 p q k) = d (ix2 p q) := by
  refine (broadcastTo_apply _ h (ix3 p q k) (ix3 p q (0 : Fin 1)) fun a => ?_).trans ?_
  · match a with
    | ⟨0, _⟩ => rfl
    | ⟨1, _⟩ => rfl
    | ⟨2, _⟩ => rfl
  · refine shapeCast_apply d shapeCasts_S64x128_S64x128x1 (ix3 p q (0 : Fin 1)) (ix2 p q) ?_
    rw [Shape.rowMajor_val_three, Shape.rowMajor_val_two]
    show p.val * 128 + q.val = (p.val * 128 + q.val) * 1 + 0
    omega

/-! ## A bin tile as a one-hot matrix -/

/-- Row p * 128 + q of the flattened 8192-row matrices. -/
def flatRow (p : Fin 64) (q : Fin 128) : Fin 8192 := ⟨p.val * 128 + q.val, by omega⟩

/-- The 66-wide one-hot matrix of a bin tile d, at row p * 128 + q and column k: the indicator that the bin at (p, q) is k. -/
theorem oneHot66_apply (d : IVec S64x128 32) (p : Fin 64) (q : Fin 128) (k : Fin 66) :
    shapeCast S8192x66 (truncf .bf16 (sitofp (F := Ideal) .f32 (extui 32 (cmpi .eq
        (broadcastTo S64x128x66 (shapeCast S64x128x1 d shapeCasts_S64x128_S64x128x1) broadcasts_S64x128x1_S64x128x66)
        (iota .tc S64x128x66 32 [2] iota_S64x128x66_d2_w32)) natLt_1_32)) bitsLt_bf16_f32)
      shapeCasts_S64x128x66_S8192x66 (ix2 (flatRow p q) k)
    = hot (d (ix2 p q)) k.val := by
  refine (shapeCast_apply _ shapeCasts_S64x128x66_S8192x66 (ix2 (flatRow p q) k) (ix3 p q k) ?_).trans ?_
  · rw [Shape.rowMajor_val_three, Shape.rowMajor_val_two]
    rfl
  · show FloatOps.sitofp (F := Ideal) .f32 ((IntOp.cmpi .eq
        (broadcastTo S64x128x66 (shapeCast S64x128x1 d shapeCasts_S64x128_S64x128x1) broadcasts_S64x128x1_S64x128x66 (ix3 p q k))
        (iota .tc S64x128x66 32 [2] iota_S64x128x66_d2_w32 (ix3 p q k))).setWidth 32) = _
    rw [sitofp_widen, lastSpread_apply d broadcasts_S64x128x1_S64x128x66 p q k,
      iota_single_apply .tc S64x128x66 32 2 iota_S64x128x66_d2_w32 (ix3 p q k)]
    rfl

/-- The 6-wide one-hot matrix of a bin tile, likewise. -/
theorem oneHot6_apply (d : IVec S64x128 32) (p : Fin 64) (q : Fin 128) (k : Fin 6) :
    shapeCast S8192x6 (truncf .bf16 (sitofp (F := Ideal) .f32 (extui 32 (cmpi .eq
        (broadcastTo S64x128x6 (shapeCast S64x128x1 d shapeCasts_S64x128_S64x128x1) broadcasts_S64x128x1_S64x128x6)
        (iota .tc S64x128x6 32 [2] iota_S64x128x6_d2_w32)) natLt_1_32)) bitsLt_bf16_f32)
      shapeCasts_S64x128x6_S8192x6 (ix2 (flatRow p q) k)
    = hot (d (ix2 p q)) k.val := by
  refine (shapeCast_apply _ shapeCasts_S64x128x6_S8192x6 (ix2 (flatRow p q) k) (ix3 p q k) ?_).trans ?_
  · rw [Shape.rowMajor_val_three, Shape.rowMajor_val_two]
    rfl
  · show FloatOps.sitofp (F := Ideal) .f32 ((IntOp.cmpi .eq
        (broadcastTo S64x128x6 (shapeCast S64x128x1 d shapeCasts_S64x128_S64x128x1) broadcasts_S64x128x1_S64x128x6 (ix3 p q k))
        (iota .tc S64x128x6 32 [2] iota_S64x128x6_d2_w32 (ix3 p q k))).setWidth 32) = _
    rw [sitofp_widen, lastSpread_apply d broadcasts_S64x128x1_S64x128x6 p q k,
      iota_single_apply .tc S64x128x6 32 2 iota_S64x128x6_d2_w32 (ix3 p q k)]
    rfl

/-! ## A matrix product into the zero block, read at an index -/

/-! The 66-term product: the operand indices of the contraction, axis by axis. -/

theorem lhs66_0 (i : S8192x128.Idx) (c : dot_S8192x66_S66x128_S8192x128_1_0_0_1_n_n.contr.Idx) :
    (dot_S8192x66_S66x128_S8192x128_1_0_0_1_n_n.lhsIdx i c 0).val = (i 0).val := by
  unfold DotDims.lhsIdx
  rw [dif_neg (show ¬(0 : Fin S8192x66.rank) ∈ dot_S8192x66_S66x128_S8192x128_1_0_0_1_n_n.lhsBatch by decide), dif_pos (show (0 : Fin S8192x66.rank) ∈ dot_S8192x66_S66x128_S8192x128_1_0_0_1_n_n.lhsNonContracting by decide)]
  rfl
theorem lhs66_1 (i : S8192x128.Idx) (c : dot_S8192x66_S66x128_S8192x128_1_0_0_1_n_n.contr.Idx) :
    (dot_S8192x66_S66x128_S8192x128_1_0_0_1_n_n.lhsIdx i c 1).val = (c ⟨0, by decide⟩).val :=
  dot_S8192x66_S66x128_S8192x128_1_0_0_1_n_n.lhsIdx_val_of_single rfl i c
theorem rhs66_0 (i : S8192x128.Idx) (c : dot_S8192x66_S66x128_S8192x128_1_0_0_1_n_n.contr.Idx) :
    (dot_S8192x66_S66x128_S8192x128_1_0_0_1_n_n.rhsIdx i c 0).val = (c ⟨0, by decide⟩).val :=
  dot_S8192x66_S66x128_S8192x128_1_0_0_1_n_n.rhsIdx_val_of_single rfl i c
theorem rhs66_1 (i : S8192x128.Idx) (c : dot_S8192x66_S66x128_S8192x128_1_0_0_1_n_n.contr.Idx) :
    (dot_S8192x66_S66x128_S8192x128_1_0_0_1_n_n.rhsIdx i c 1).val = (i 1).val := by
  unfold DotDims.rhsIdx
  rw [dif_neg (show ¬(1 : Fin S66x128.rank) ∈ dot_S8192x66_S66x128_S8192x128_1_0_0_1_n_n.rhsBatch by decide), dif_pos (show (1 : Fin S66x128.rank) ∈ dot_S8192x66_S66x128_S8192x128_1_0_0_1_n_n.rhsNonContracting by decide)]
  rfl

/-- A product [8192, 66] x [66, 128] into the zero block, at (r, z): the sum over the 66 columns of the left factor's row r
    times the right factor's column z. -/
theorem matmul66_apply (L : FVec Ideal S8192x66 .bf16) (R : FVec Ideal S66x128 .bf16) (r : Fin 8192) (z : Fin 128) :
    matmul dot_S8192x66_S66x128_S8192x128_1_0_0_1_n_n none L R (constant (F := Ideal) S8192x128 .f32 0x00000000#32) (ix2 r z)
      = ∑ k : Fin 66, L (ix2 r k) * R (ix2 k z) := by
  simp only [matmul]
  rw [Ideal.matmul_constant_zero_apply, ← Equiv.sum_comp (ValueIdx.contrEquiv1 dot_S8192x66_S66x128_S8192x128_1_0_0_1_n_n 66 rfl rfl).symm]
  refine Finset.sum_congr rfl fun k _ => ?_
  have hk := ValueIdx.contrEquiv1_symm_val dot_S8192x66_S66x128_S8192x128_1_0_0_1_n_n 66 rfl rfl k
  have el : dot_S8192x66_S66x128_S8192x128_1_0_0_1_n_n.lhsIdx (ix2 r z) ((ValueIdx.contrEquiv1 dot_S8192x66_S66x128_S8192x128_1_0_0_1_n_n 66 rfl rfl).symm k) = ix2 r k := funext fun a => Fin.ext (by
    match a with
    | ⟨0, _⟩ => exact lhs66_0 _ _
    | ⟨1, _⟩ => exact (lhs66_1 _ _).trans hk)
  have er : dot_S8192x66_S66x128_S8192x128_1_0_0_1_n_n.rhsIdx (ix2 r z) ((ValueIdx.contrEquiv1 dot_S8192x66_S66x128_S8192x128_1_0_0_1_n_n 66 rfl rfl).symm k) = ix2 k z := funext fun a => Fin.ext (by
    match a with
    | ⟨0, _⟩ => exact (rhs66_0 _ _).trans hk
    | ⟨1, _⟩ => exact rhs66_1 _ _)
  rw [el, er]

/-! The 6-term product, likewise. -/

theorem lhs6_0 (i : S8192x128.Idx) (c : dot_S8192x6_S6x128_S8192x128_1_0_0_1_n_n.contr.Idx) :
    (dot_S8192x6_S6x128_S8192x128_1_0_0_1_n_n.lhsIdx i c 0).val = (i 0).val := by
  unfold DotDims.lhsIdx
  rw [dif_neg (show ¬(0 : Fin S8192x6.rank) ∈ dot_S8192x6_S6x128_S8192x128_1_0_0_1_n_n.lhsBatch by decide), dif_pos (show (0 : Fin S8192x6.rank) ∈ dot_S8192x6_S6x128_S8192x128_1_0_0_1_n_n.lhsNonContracting by decide)]
  rfl
theorem lhs6_1 (i : S8192x128.Idx) (c : dot_S8192x6_S6x128_S8192x128_1_0_0_1_n_n.contr.Idx) :
    (dot_S8192x6_S6x128_S8192x128_1_0_0_1_n_n.lhsIdx i c 1).val = (c ⟨0, by decide⟩).val :=
  dot_S8192x6_S6x128_S8192x128_1_0_0_1_n_n.lhsIdx_val_of_single rfl i c
theorem rhs6_0 (i : S8192x128.Idx) (c : dot_S8192x6_S6x128_S8192x128_1_0_0_1_n_n.contr.Idx) :
    (dot_S8192x6_S6x128_S8192x128_1_0_0_1_n_n.rhsIdx i c 0).val = (c ⟨0, by decide⟩).val :=
  dot_S8192x6_S6x128_S8192x128_1_0_0_1_n_n.rhsIdx_val_of_single rfl i c
theorem rhs6_1 (i : S8192x128.Idx) (c : dot_S8192x6_S6x128_S8192x128_1_0_0_1_n_n.contr.Idx) :
    (dot_S8192x6_S6x128_S8192x128_1_0_0_1_n_n.rhsIdx i c 1).val = (i 1).val := by
  unfold DotDims.rhsIdx
  rw [dif_neg (show ¬(1 : Fin S6x128.rank) ∈ dot_S8192x6_S6x128_S8192x128_1_0_0_1_n_n.rhsBatch by decide), dif_pos (show (1 : Fin S6x128.rank) ∈ dot_S8192x6_S6x128_S8192x128_1_0_0_1_n_n.rhsNonContracting by decide)]
  rfl

/-- A product [8192, 6] x [6, 128] into the zero block, at (r, z). -/
theorem matmul6_apply (L : FVec Ideal S8192x6 .bf16) (R : FVec Ideal S6x128 .bf16) (r : Fin 8192) (z : Fin 128) :
    matmul dot_S8192x6_S6x128_S8192x128_1_0_0_1_n_n none L R (constant (F := Ideal) S8192x128 .f32 0x00000000#32) (ix2 r z)
      = ∑ k : Fin 6, L (ix2 r k) * R (ix2 k z) := by
  simp only [matmul]
  rw [Ideal.matmul_constant_zero_apply, ← Equiv.sum_comp (ValueIdx.contrEquiv1 dot_S8192x6_S6x128_S8192x128_1_0_0_1_n_n 6 rfl rfl).symm]
  refine Finset.sum_congr rfl fun k _ => ?_
  have hk := ValueIdx.contrEquiv1_symm_val dot_S8192x6_S6x128_S8192x128_1_0_0_1_n_n 6 rfl rfl k
  have el : dot_S8192x6_S6x128_S8192x128_1_0_0_1_n_n.lhsIdx (ix2 r z) ((ValueIdx.contrEquiv1 dot_S8192x6_S6x128_S8192x128_1_0_0_1_n_n 6 rfl rfl).symm k) = ix2 r k := funext fun a => Fin.ext (by
    match a with
    | ⟨0, _⟩ => exact lhs6_0 _ _
    | ⟨1, _⟩ => exact (lhs6_1 _ _).trans hk)
  have er : dot_S8192x6_S6x128_S8192x128_1_0_0_1_n_n.rhsIdx (ix2 r z) ((ValueIdx.contrEquiv1 dot_S8192x6_S6x128_S8192x128_1_0_0_1_n_n 6 rfl rfl).symm k) = ix2 k z := funext fun a => Fin.ext (by
    match a with
    | ⟨0, _⟩ => exact (rhs6_0 _ _).trans hk
    | ⟨1, _⟩ => exact rhs6_1 _ _)
  rw [el, er]

/-! ## The four terms at an index, and their sum -/

/-- Rows o .. o + n - 1 of the table, as a block, read at (k, z): the table at (o + k, z). -/
theorem rows_apply (x11 : Vec Ideal S139x128 .f32) (o n : ℕ)
    (inb : ∀ a, (![o, 0] : Fin 2 → Nat) a + (![n, 128] : Fin 2 → Nat) a ≤ S139x128.size a) (k : Fin n) (z : Fin 128)
    (i : Fin 139) (hi : i.val = o + k.val) :
    View.ld x11 (Rect.unit (s := S139x128) ![o, 0] ![n, 128] inb) (ix2 k z) = x11 (ix2 i z) := by
  refine congrArg x11 (funext fun a => Fin.ext ?_)
  match a with
  | ⟨0, _⟩ => show o + 1 * k.val = i.val; omega
  | ⟨1, _⟩ => show 0 + 1 * z.val = z.val; omega

/-- The flattened product block [8192, 128] viewed [64, 128, 128], read at (p, q, z): row p * 128 + q, column z. -/
theorem unflatten_apply (v : FVec Ideal S8192x128 .f32) (p : Fin 64) (q z : Fin 128) :
    shapeCast S64x128x128 v shapeCasts_S8192x128_S64x128x128 (ix3 p q z) = v (ix2 (flatRow p q) z) := by
  refine shapeCast_apply v shapeCasts_S8192x128_S64x128x128 (ix3 p q z) (ix2 (flatRow p q) z) ?_
  rw [Shape.rowMajor_val_two, Shape.rowMajor_val_three]
  rfl

/-- The residue bin of the tile at (p, q). -/
theorem resBin_apply (x0 : Vec Ideal S1x64x1 .i32) (x1 : Vec Ideal S1x1x128 .i32) (x2 : Vec Ideal S1x64x1 .i32)
    (x3 x10 : Vec Ideal S1x1x128 .i32) (p : Fin 64) (q : Fin 128) :
    select (k0_pay3 (F := Ideal) x0 x1) (minsi k0_pay8 (k0_pay7 (F := Ideal) x2 x3 x10)) (broadcast S64x128 65#32) (ix2 p q)
      = dRes (x0 (ix3 (0 : Fin 1) p (0 : Fin 1))) (x1 (ix3 (0 : Fin 1) (0 : Fin 1) q))
          (x2 (ix3 (0 : Fin 1) p (0 : Fin 1))) (x3 (ix3 (0 : Fin 1) (0 : Fin 1) q)) (x10 (ix3 (0 : Fin 1) (0 : Fin 1) q)) := by
  show Scalar.select (k0_pay3 (F := Ideal) x0 x1 (ix2 p q)) (IntOp.minsi 64#32 (k0_pay7 (F := Ideal) x2 x3 x10 (ix2 p q))) 65#32 = _
  rw [pay3_apply, pay7_apply]
  rfl

/-- The residue group's product at (0, p, q, z): the one-hot of the residue bin against rows 0..65. -/
theorem resTerm_apply (x0 : Vec Ideal S1x64x1 .i32) (x1 : Vec Ideal S1x1x128 .i32) (x2 : Vec Ideal S1x64x1 .i32)
    (x3 x10 : Vec Ideal S1x1x128 .i32) (x11 : Vec Ideal S139x128 .f32) (p : Fin 64) (q z : Fin 128) :
    resTerm (F := Ideal) x0 x1 x2 x3 x10 x11 (ix4 (0 : Fin 1) p q z)
      = ∑ k : Fin 66, hot (dRes (x0 (ix3 (0 : Fin 1) p (0 : Fin 1))) (x1 (ix3 (0 : Fin 1) (0 : Fin 1) q))
          (x2 (ix3 (0 : Fin 1) p (0 : Fin 1))) (x3 (ix3 (0 : Fin 1) (0 : Fin 1) q)) (x10 (ix3 (0 : Fin 1) (0 : Fin 1) q))) k.val
            * x11 (ix2 (⟨k.val, by omega⟩ : Fin 139) z) := by
  unfold resTerm k0_pay9
  refine (shapeCast_abc_1abc_apply _ shapeCasts_S64x128x128_S1x64x128x128 (0 : Fin 1) p q z).trans ?_
  refine (unflatten_apply _ p q z).trans ?_
  refine (matmul66_apply _ _ (flatRow p q) z).trans ?_
  refine Finset.sum_congr rfl fun k _ => ?_
  refine congrArg₂ (· * ·) ?_ ?_
  · refine (oneHot66_apply _ p q k).trans ?_
    exact congrArg (fun d => hot d k.val) (resBin_apply x0 x1 x2 x3 x10 p q)
  · exact rows_apply x11 0 66 inb_S139x128_S66x128_0_0 k z ⟨k.val, by omega⟩ (Nat.zero_add _).symm

/-- The token group's one-hot matrix at (row p * 128 + q, k): the indicator that the token bin is k. -/
theorem pay10_apply (x0 : Vec Ideal S1x64x1 .i32) (x1 : Vec Ideal S1x1x128 .i32) (x2 : Vec Ideal S1x64x1 .i32)
    (x3 : Vec Ideal S1x1x128 .i32) (x6 : Vec Ideal S1x64x1 .i32) (x7 : Vec Ideal S1x1x128 .i32)
    (p : Fin 64) (q : Fin 128) (k : Fin 66) :
    k0_pay10 (F := Ideal) (k0_pay3 (F := Ideal) x0 x1) (k0_pay6 (F := Ideal) x2 x3) x6 x7 (ix2 (flatRow p q) k)
      = hot (dTok (x0 (ix3 (0 : Fin 1) p (0 : Fin 1))) (x1 (ix3 (0 : Fin 1) (0 : Fin 1) q))
          (x2 (ix3 (0 : Fin 1) p (0 : Fin 1))) (x3 (ix3 (0 : Fin 1) (0 : Fin 1) q))
          (x6 (ix3 (0 : Fin 1) p (0 : Fin 1))) (x7 (ix3 (0 : Fin 1) (0 : Fin 1) q))) k.val := by
  unfold k0_pay10
  refine (oneHot66_apply _ p q k).trans ?_
  refine congrArg (fun d => hot d k.val) ?_
  show Scalar.select (IntOp.andi (k0_pay3 (F := Ideal) x0 x1 (ix2 p q)) (k0_pay6 (F := Ideal) x2 x3 (ix2 p q)))
      (IntOp.minsi 64#32 (IntOp.maxsi 0#32 (IntOp.addi (IntOp.subi
        (broadcastTo S64x128 (shapeCast S64x1 x6 shapeCasts_S1x64x1_S64x1) broadcasts_S64x1_S64x128 (ix2 p q))
        (broadcastTo S64x128 (shapeCast S1x128 x7 shapeCasts_S1x1x128_S1x128) broadcasts_S1x128_S64x128 (ix2 p q))) 32#32))) 65#32 = _
  rw [pay3_apply, pay6_apply, rowSpread_apply, colSpread_apply]
  rfl

/-- The chain group's one-hot matrix at (row p * 128 + q, k): the indicator that the chain bin is k. -/
theorem pay12_apply (x0 : Vec Ideal S1x64x1 .i32) (x1 : Vec Ideal S1x1x128 .i32)
    (x8 : Vec Ideal S1x64x1 .i32) (x9 : Vec Ideal S1x1x128 .i32) (p : Fin 64) (q : Fin 128) (k : Fin 6) :
    k0_pay12 (F := Ideal) (k0_pay3 (F := Ideal) x0 x1) x8 x9 (ix2 (flatRow p q) k)
      = hot (dChain (x0 (ix3 (0 : Fin 1) p (0 : Fin 1))) (x1 (ix3 (0 : Fin 1) (0 : Fin 1) q))
          (x8 (ix3 (0 : Fin 1) p (0 : Fin 1))) (x9 (ix3 (0 : Fin 1) (0 : Fin 1) q))) k.val := by
  unfold k0_pay12
  refine (oneHot6_apply _ p q k).trans ?_
  refine congrArg (fun d => hot d k.val) ?_
  show Scalar.select (k0_pay3 (F := Ideal) x0 x1 (ix2 p q)) 5#32
      (IntOp.minsi 4#32 (IntOp.maxsi 0#32 (IntOp.addi (IntOp.subi
        (broadcastTo S64x128 (shapeCast S64x1 x8 shapeCasts_S1x64x1_S64x1) broadcasts_S64x1_S64x128 (ix2 p q))
        (broadcastTo S64x128 (shapeCast S1x128 x9 shapeCasts_S1x1x128_S1x128) broadcasts_S1x128_S64x128 (ix2 p q))) 2#32))) = _
  rw [pay3_apply, rowSpread_apply, colSpread_apply]
  rfl

/-- The block after the second store at (0, p, q, z): the residue product plus the token one-hot against rows 66..131. -/
theorem resTokTerm_apply (x0 : Vec Ideal S1x64x1 .i32) (x1 : Vec Ideal S1x1x128 .i32) (x2 : Vec Ideal S1x64x1 .i32)
    (x3 : Vec Ideal S1x1x128 .i32) (x6 : Vec Ideal S1x64x1 .i32) (x7 x10 : Vec Ideal S1x1x128 .i32)
    (x11 : Vec Ideal S139x128 .f32) (p : Fin 64) (q z : Fin 128) :
    resTokTerm (F := Ideal) x0 x1 x2 x3 x6 x7 x10 x11 (ix4 (0 : Fin 1) p q z)
      = resTerm (F := Ideal) x0 x1 x2 x3 x10 x11 (ix4 (0 : Fin 1) p q z)
        + ∑ k : Fin 66, hot (dTok (x0 (ix3 (0 : Fin 1) p (0 : Fin 1))) (x1 (ix3 (0 : Fin 1) (0 : Fin 1) q))
            (x2 (ix3 (0 : Fin 1) p (0 : Fin 1))) (x3 (ix3 (0 : Fin 1) (0 : Fin 1) q))
            (x6 (ix3 (0 : Fin 1) p (0 : Fin 1))) (x7 (ix3 (0 : Fin 1) (0 : Fin 1) q))) k.val
              * x11 (ix2 (⟨66 + k.val, by omega⟩ : Fin 139) z) := by
  unfold resTokTerm k0_pay11
  refine (shapeCast_abc_1abc_apply _ shapeCasts_S64x128x128_S1x64x128x128 (0 : Fin 1) p q z).trans ?_
  refine (addf_apply _ _ _).trans ?_
  refine congrArg₂ (· + ·) ?_ ?_
  · exact shapeCast_1abc_abc_apply _ shapeCasts_S1x64x128x128_S64x128x128 p q z
  · refine (unflatten_apply _ p q z).trans ?_
    refine (matmul66_apply _ _ (flatRow p q) z).trans ?_
    refine Finset.sum_congr rfl fun k _ => ?_
    refine congrArg₂ (· * ·) ?_ ?_
    · exact pay10_apply x0 x1 x2 x3 x6 x7 p q k
    · exact rows_apply x11 66 66 inb_S139x128_S66x128_66_0 k z ⟨66 + k.val, by omega⟩ rfl

/-- The block after the third store at (0, p, q, z): plus the chain one-hot against rows 133..138. -/
theorem resTokChainTerm_apply (x0 : Vec Ideal S1x64x1 .i32) (x1 : Vec Ideal S1x1x128 .i32) (x2 : Vec Ideal S1x64x1 .i32)
    (x3 : Vec Ideal S1x1x128 .i32) (x6 : Vec Ideal S1x64x1 .i32) (x7 : Vec Ideal S1x1x128 .i32)
    (x8 : Vec Ideal S1x64x1 .i32) (x9 x10 : Vec Ideal S1x1x128 .i32)
    (x11 : Vec Ideal S139x128 .f32) (p : Fin 64) (q z : Fin 128) :
    resTokChainTerm (F := Ideal) x0 x1 x2 x3 x6 x7 x8 x9 x10 x11 (ix4 (0 : Fin 1) p q z)
      = resTokTerm (F := Ideal) x0 x1 x2 x3 x6 x7 x10 x11 (ix4 (0 : Fin 1) p q z)
        + ∑ k : Fin 6, hot (dChain (x0 (ix3 (0 : Fin 1) p (0 : Fin 1))) (x1 (ix3 (0 : Fin 1) (0 : Fin 1) q))
            (x8 (ix3 (0 : Fin 1) p (0 : Fin 1))) (x9 (ix3 (0 : Fin 1) (0 : Fin 1) q))) k.val
              * x11 (ix2 (⟨133 + k.val, by omega⟩ : Fin 139) z) := by
  unfold resTokChainTerm k0_pay1 k0_pay13
  refine (shapeCast_abc_1abc_apply _ shapeCasts_S64x128x128_S1x64x128x128 (0 : Fin 1) p q z).trans ?_
  refine (addf_apply _ _ _).trans ?_
  refine congrArg₂ (· + ·) ?_ ?_
  · exact shapeCast_1abc_abc_apply _ shapeCasts_S1x64x128x128_S64x128x128 p q z
  · refine (unflatten_apply _ p q z).trans ?_
    refine (matmul6_apply _ _ (flatRow p q) z).trans ?_
    refine Finset.sum_congr rfl fun k _ => ?_
    refine congrArg₂ (· * ·) ?_ ?_
    · exact pay12_apply x0 x1 x8 x9 p q k
    · exact rows_apply x11 133 6 inb_S139x128_S6x128_133_0 k z ⟨133 + k.val, by omega⟩ rfl

/-- Row 132 of the table as a [1, 128] block, flattened, given two leading unit axes and spread over the tile: at (p, q, z)
    it is the block's entry at (0, z). -/
theorem lastRowSpread_apply (v : FVec Ideal S1x128 .f32) (p : Fin 64) (q z : Fin 128) :
    broadcastTo S64x128x128 (shapeCast S1x1x128 (shapeCast S128 v shapeCasts_S1x128_S128) shapeCasts_S128_S1x1x128)
        broadcasts_S1x1x128_S64x128x128 (ix3 p q z)
      = v (ix2 (0 : Fin 1) z) := by
  refine (broadcastTo_apply _ broadcasts_S1x1x128_S64x128x128 (ix3 p q z) (ix3 (0 : Fin 1) (0 : Fin 1) z) fun a => ?_).trans ?_
  · match a with
    | ⟨0, _⟩ => rfl
    | ⟨1, _⟩ => rfl
    | ⟨2, _⟩ => rfl
  · refine (shapeCast_apply _ shapeCasts_S128_S1x1x128 (ix3 (0 : Fin 1) (0 : Fin 1) z) (ix1 z) ?_).trans ?_
    · rw [Shape.rowMajor_val_one, Shape.rowMajor_val_three]
      show z.val = (0 * 1 + 0) * 128 + z.val
      omega
    · exact shapeCast_1a_a_apply v shapeCasts_S1x128_S128 z

/-- The entity indicator of the tile at (p, q), as an extended real. -/
theorem entityInd_apply (x4 : Vec Ideal S1x64x1 .i32) (x5 : Vec Ideal S1x1x128 .i32) (p : Fin 64) (q : Fin 128) :
    sitofp (F := Ideal) .f32 (extui 32 (cmpi .eq
        (broadcastTo S64x128 (shapeCast S64x1 x4 shapeCasts_S1x64x1_S64x1) broadcasts_S64x1_S64x128)
        (broadcastTo S64x128 (shapeCast S1x128 x5 shapeCasts_S1x1x128_S1x128) broadcasts_S1x128_S64x128)) natLt_1_32) (ix2 p q)
      = ind (IntOp.cmpi .eq (x4 (ix3 (0 : Fin 1) p (0 : Fin 1))) (x5 (ix3 (0 : Fin 1) (0 : Fin 1) q))) := by
  show FloatOps.sitofp (F := Ideal) .f32 ((IntOp.cmpi .eq
      (broadcastTo S64x128 (shapeCast S64x1 x4 shapeCasts_S1x64x1_S64x1) broadcasts_S64x1_S64x128 (ix2 p q))
      (broadcastTo S64x128 (shapeCast S1x128 x5 shapeCasts_S1x1x128_S1x128) broadcasts_S1x128_S64x128 (ix2 p q))).setWidth 32) = _
  rw [sitofp_widen, rowSpread_apply, colSpread_apply]

/-- THE BODY'S RESULT AT AN INDEX: the four groups' terms, in the order the body adds them, are the specification's entry. -/
theorem bodyTerm_apply (x0 : Vec Ideal S1x64x1 .i32) (x1 : Vec Ideal S1x1x128 .i32) (x2 : Vec Ideal S1x64x1 .i32) (x3 : Vec Ideal S1x1x128 .i32)
    (x4 : Vec Ideal S1x64x1 .i32) (x5 : Vec Ideal S1x1x128 .i32) (x6 : Vec Ideal S1x64x1 .i32) (x7 : Vec Ideal S1x1x128 .i32)
    (x8 : Vec Ideal S1x64x1 .i32) (x9 : Vec Ideal S1x1x128 .i32) (x10 : Vec Ideal S1x1x128 .i32) (x11 : Vec Ideal S139x128 .f32)
    (p : Fin 64) (q z : Fin 128) :
    bodyTerm (F := Ideal) x0 x1 x2 x3 x4 x5 x6 x7 x8 x9 x10 x11 (ix4 (0 : Fin 1) p q z)
      = entryOf (x0 (ix3 (0 : Fin 1) p (0 : Fin 1))) (x1 (ix3 (0 : Fin 1) (0 : Fin 1) q))
                (x2 (ix3 (0 : Fin 1) p (0 : Fin 1))) (x3 (ix3 (0 : Fin 1) (0 : Fin 1) q))
                (x4 (ix3 (0 : Fin 1) p (0 : Fin 1))) (x5 (ix3 (0 : Fin 1) (0 : Fin 1) q))
                (x6 (ix3 (0 : Fin 1) p (0 : Fin 1))) (x7 (ix3 (0 : Fin 1) (0 : Fin 1) q))
                (x8 (ix3 (0 : Fin 1) p (0 : Fin 1))) (x9 (ix3 (0 : Fin 1) (0 : Fin 1) q))
                (x10 (ix3 (0 : Fin 1) (0 : Fin 1) q)) x11 z := by
  unfold bodyTerm k0_pay2 entryOf
  refine (shapeCast_abc_1abc_apply _ shapeCasts_S64x128x128_S1x64x128x128 (0 : Fin 1) p q z).trans ?_
  refine (addf_apply _ _ _).trans ?_
  refine congrArg₂ (· + ·) ?_ ?_
  · refine (shapeCast_1abc_abc_apply _ shapeCasts_S1x64x128x128_S64x128x128 p q z).trans ?_
    rw [resTokChainTerm_apply, resTokTerm_apply, resTerm_apply]
  · refine (mulf_apply _ _ _).trans ?_
    refine congrArg₂ (· * ·) ?_ ?_
    · refine (lastSpread_apply _ broadcasts_S64x128x1_S64x128x128 p q z).trans ?_
      exact entityInd_apply x4 x5 p q
    · refine (lastRowSpread_apply _ p q z).trans ?_
      exact rows_apply x11 132 1 inb_S139x128_S1x128_132_0 (0 : Fin 1) z ⟨132, by omega⟩ rfl

end Cert.KernelIdeal.Body

end
-- ==== Proof.Final.lean ====
/-
  From blocks to the array: the kernel's result array after the run IS the encoding of the arguments.

  The grid has 2 x 12 x 6 points; point (b, i, j) computes the output block of batch b, row tokens 64 i .. 64 i + 63 and
  column tokens 128 j .. 128 j + 127, all 128 channels. The row-indexed inputs are staged 64 tokens at a time at block
  (b, i), the column-indexed ones 128 tokens at a time at block (b, j), and the table whole. So entry (0, p, q, z) of the
  block of point (b, i, j) is entry (b, 64 i + p, 128 j + q, z) of the array, and it is computed from the ids of row token
  64 i + p and column token 128 j + q of batch b: that is the encoding's entry there. The blocks tile the array (768 =
  12 * 64 = 6 * 128), every point writes its block back, so the array ends holding the encoding everywhere.
-/
import proofs.«108437_j69999376990394_1_alg».proof.Proof.Gen.KernelIdeal.Value
import proofs.«108437_j69999376990394_1_alg».proof.Proof.Spec
import proofs.«108437_j69999376990394_1_alg».proof.Proof.BodyValue
import proofs.«108437_j69999376990394_1_alg».proof.Proof.BodyEntry
import Idealize.ShloMosaic.Lib.StableHlo.Run
import Idealize.ShloMosaic.Lib.Pipeline.Value
import Idealize.ShloMosaic.Lib.ValueIdx

set_option maxRecDepth 16384

noncomputable section

namespace Cert.KernelIdeal.Final

open Cert.RelPos Cert.KernelIdeal Cert.KernelIdeal.Gen Cert.KernelIdeal.Value Cert.KernelIdeal.Body Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The encoding of the arguments as core `c` was launched with them. -/
abbrev enc (c : Dev nD) : S2x768x768x128.Idx → EReal :=
  encoding (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The index maps, decided once over the 144 grid points -/

/-- Each row window sits at the output block's batch and row tile, each column window at its batch and column tile, the
    table at its one block; the output's block indices stay in 2 x 12 x 6 x 1. -/
theorem idx_facts : ∀ t : Fin cfg0.N,
    (win0_0.index t (0 : Fin 3) = win0_12.index t (0 : Fin 4) ∧ win0_0.index t (1 : Fin 3) = win0_12.index t (1 : Fin 4) ∧ win0_0.index t (2 : Fin 3) = 0)
    ∧
    (win0_1.index t (0 : Fin 3) = win0_12.index t (0 : Fin 4) ∧ win0_1.index t (1 : Fin 3) = 0 ∧ win0_1.index t (2 : Fin 3) = win0_12.index t (2 : Fin 4))
    ∧
    (win0_2.index t (0 : Fin 3) = win0_12.index t (0 : Fin 4) ∧ win0_2.index t (1 : Fin 3) = win0_12.index t (1 : Fin 4) ∧ win0_2.index t (2 : Fin 3) = 0)
    ∧
    (win0_3.index t (0 : Fin 3) = win0_12.index t (0 : Fin 4) ∧ win0_3.index t (1 : Fin 3) = 0 ∧ win0_3.index t (2 : Fin 3) = win0_12.index t (2 : Fin 4))
    ∧
    (win0_4.index t (0 : Fin 3) = win0_12.index t (0 : Fin 4) ∧ win0_4.index t (1 : Fin 3) = win0_12.index t (1 : Fin 4) ∧ win0_4.index t (2 : Fin 3) = 0)
    ∧
    (win0_5.index t (0 : Fin 3) = win0_12.index t (0 : Fin 4) ∧ win0_5.index t (1 : Fin 3) = 0 ∧ win0_5.index t (2 : Fin 3) = win0_12.index t (2 : Fin 4))
    ∧
    (win0_6.index t (0 : Fin 3) = win0_12.index t (0 : Fin 4) ∧ win0_6.index t (1 : Fin 3) = win0_12.index t (1 : Fin 4) ∧ win0_6.index t (2 : Fin 3) = 0)
    ∧
    (win0_7.index t (0 : Fin 3) = win0_12.index t (0 : Fin 4) ∧ win0_7.index t (1 : Fin 3) = 0 ∧ win0_7.index t (2 : Fin 3) = win0_12.index t (2 : Fin 4))
    ∧
    (win0_8.index t (0 : Fin 3) = win0_12.index t (0 : Fin 4) ∧ win0_8.index t (1 : Fin 3) = win0_12.index t (1 : Fin 4) ∧ win0_8.index t (2 : Fin 3) = 0)
    ∧
    (win0_9.index t (0 : Fin 3) = win0_12.index t (0 : Fin 4) ∧ win0_9.index t (1 : Fin 3) = 0 ∧ win0_9.index t (2 : Fin 3) = win0_12.index t (2 : Fin 4))
    ∧
    (win0_10.index t (0 : Fin 3) = win0_12.index t (0 : Fin 4) ∧ win0_10.index t (1 : Fin 3) = 0 ∧ win0_10.index t (2 : Fin 3) = win0_12.index t (2 : Fin 4))
    ∧
    (win0_11.index t (0 : Fin 2) = 0 ∧ win0_11.index t (1 : Fin 2) = 0)
    ∧
    (win0_12.index t (0 : Fin 4) ≤ 1 ∧ win0_12.index t (1 : Fin 4) ≤ 11 ∧ win0_12.index t (2 : Fin 4) ≤ 5 ∧ win0_12.index t (3 : Fin 4) = 0) :=
  (by decide +kernel : ∀ t : Fin grid0.N, _)

/-- Every block of the 2 x 12 x 6 tiling is some point's. -/
theorem idx_onto : ∀ (q0 : Fin 2) (q1 : Fin 12) (q2 : Fin 6), ∃ t : Fin cfg0.N, win0_12.index t = ![q0.val, q1.val, q2.val, 0] :=
  (by decide +kernel : ∀ (q0 : Fin 2) (q1 : Fin 12) (q2 : Fin 6), ∃ t : Fin grid0.N, win0_12.index t = ![q0.val, q1.val, q2.val, 0])

/-! ## The arrays the windows stage: each id array with a unit axis, written before the region -/

/-- The array row window 0 stages is argument 0 with a unit axis appended: [2, 768] read as [2, 768, 1]. -/
theorem V_main_v0 (c : Dev nD) : (V m c main_v0 : S2x768x1.Idx → BitVec 32) =
    broadcastInDim S2x768x1 ![0, 1] bcast_S2x768_S2x768x1_0_1 (m ((c : Thread nD τ).loc main_arg0)) := by
  dsimp only [Gen.V, Gen.hostOps0]; after_results

/-- The array column window 1 stages is argument 0 with a unit axis inserted: [2, 768] read as [2, 1, 768]. -/
theorem V_main_v1 (c : Dev nD) : (V m c main_v1 : S2x1x768.Idx → BitVec 32) =
    broadcastInDim S2x1x768 ![0, 2] bcast_S2x768_S2x1x768_0_2 (m ((c : Thread nD τ).loc main_arg0)) := by
  dsimp only [Gen.V, Gen.hostOps0]; after_results

/-- The array row window 2 stages is argument 1 with a unit axis appended: [2, 768] read as [2, 768, 1]. -/
theorem V_main_v2 (c : Dev nD) : (V m c main_v2 : S2x768x1.Idx → BitVec 32) =
    broadcastInDim S2x768x1 ![0, 1] bcast_S2x768_S2x768x1_0_1 (m ((c : Thread nD τ).loc main_arg1)) := by
  dsimp only [Gen.V, Gen.hostOps0]; after_results

/-- The array column window 3 stages is argument 1 with a unit axis inserted: [2, 768] read as [2, 1, 768]. -/
theorem V_main_v3 (c : Dev nD) : (V m c main_v3 : S2x1x768.Idx → BitVec 32) =
    broadcastInDim S2x1x768 ![0, 2] bcast_S2x768_S2x1x768_0_2 (m ((c : Thread nD τ).loc main_arg1)) := by
  dsimp only [Gen.V, Gen.hostOps0]; after_results

/-- The array row window 4 stages is argument 2 with a unit axis appended: [2, 768] read as [2, 768, 1]. -/
theorem V_main_v4 (c : Dev nD) : (V m c main_v4 : S2x768x1.Idx → BitVec 32) =
    broadcastInDim S2x768x1 ![0, 1] bcast_S2x768_S2x768x1_0_1 (m ((c : Thread nD τ).loc main_arg2)) := by
  dsimp only [Gen.V, Gen.hostOps0]; after_results

/-- The array column window 5 stages is argument 2 with a unit axis inserted: [2, 768] read as [2, 1, 768]. -/
theorem V_main_v5 (c : Dev nD) : (V m c main_v5 : S2x1x768.Idx → BitVec 32) =
    broadcastInDim S2x1x768 ![0, 2] bcast_S2x768_S2x1x768_0_2 (m ((c : Thread nD τ).loc main_arg2)) := by
  dsimp only [Gen.V, Gen.hostOps0]; after_results

/-- The array row window 6 stages is argument 4 with a unit axis appended: [2, 768] read as [2, 768, 1]. -/
theorem V_main_v6 (c : Dev nD) : (V m c main_v6 : S2x768x1.Idx → BitVec 32) =
    broadcastInDim S2x768x1 ![0, 1] bcast_S2x768_S2x768x1_0_1 (m ((c : Thread nD τ).loc main_arg4)) := by
  dsimp only [Gen.V, Gen.hostOps0]; after_results

/-- The array column window 7 stages is argument 4 with a unit axis inserted: [2, 768] read as [2, 1, 768]. -/
theorem V_main_v7 (c : Dev nD) : (V m c main_v7 : S2x1x768.Idx → BitVec 32) =
    broadcastInDim S2x1x768 ![0, 2] bcast_S2x768_S2x1x768_0_2 (m ((c : Thread nD τ).loc main_arg4)) := by
  dsimp only [Gen.V, Gen.hostOps0]; after_results

/-- The array row window 8 stages is argument 5 with a unit axis appended: [2, 768] read as [2, 768, 1]. -/
theorem V_main_v8 (c : Dev nD) : (V m c main_v8 : S2x768x1.Idx → BitVec 32) =
    broadcastInDim S2x768x1 ![0, 1] bcast_S2x768_S2x768x1_0_1 (m ((c : Thread nD τ).loc main_arg5)) := by
  dsimp only [Gen.V, Gen.hostOps0]; after_results

/-- The array column window 9 stages is argument 5 with a unit axis inserted: [2, 768] read as [2, 1, 768]. -/
theorem V_main_v9 (c : Dev nD) : (V m c main_v9 : S2x1x768.Idx → BitVec 32) =
    broadcastInDim S2x1x768 ![0, 2] bcast_S2x768_S2x1x768_0_2 (m ((c : Thread nD τ).loc main_arg5)) := by
  dsimp only [Gen.V, Gen.hostOps0]; after_results

/-- The array column window 10 stages is argument 3 with a unit axis inserted: [2, 768] read as [2, 1, 768]. -/
theorem V_main_v11 (c : Dev nD) : (V m c main_v11 : S2x1x768.Idx → BitVec 32) =
    broadcastInDim S2x1x768 ![0, 2] bcast_S2x768_S2x1x768_0_2 (m ((c : Thread nD τ).loc main_arg3)) := by
  dsimp only [Gen.V, Gen.hostOps0]; after_results

/-! ## Block entries as array entries -/

/-- The array index of entry (0, p, q, z) of the output block of point t. -/
abbrev outIdx (t : Fin cfg0.N) (p : Fin 64) (q z : Fin 128) : S2x768x768x128.Idx :=
  ((cfg0.win 12).blk t).view.emb (ix4 (0 : Fin 1) p q z)

/-- Its coordinates: the block's batch, 64 * (row tile) + p, 128 * (column tile) + q, and z. -/
theorem outIdx_val (t : Fin cfg0.N) (p : Fin 64) (q z : Fin 128) :
    (outIdx t p q z 0).val = win0_12.index t (0 : Fin 4) ∧ (outIdx t p q z 1).val = win0_12.index t (1 : Fin 4) * 64 + p.val
    ∧ (outIdx t p q z 2).val = win0_12.index t (2 : Fin 4) * 128 + q.val ∧ (outIdx t p q z 3).val = z.val := by
  obtain ⟨-, -, -, -, -, -, -, -, -, -, -, -, h0, h1, h2, h3⟩ := idx_facts t
  refine ⟨?_, ?_, ?_, ?_⟩
  · show win0_12.index t (0 : Fin 4) * 1 + 1 * 0 = _; omega
  · show win0_12.index t (1 : Fin 4) * 64 + 1 * p.val = _; omega
  · show win0_12.index t (2 : Fin 4) * 128 + 1 * q.val = _; omega
  · show win0_12.index t (3 : Fin 4) * 128 + 1 * z.val = _; omega

/-- Row window 0: entry p of its block at point t is argument 0 at the output entry's batch and row token. -/
theorem blk0 (c : Dev nD) (t : Fin cfg0.N) (p : Fin 64) (q z : Fin 128) :
    iblk m c 0 t (ix3 (0 : Fin 1) p (0 : Fin 1))
      = m ((c : Thread nD τ).loc main_arg0) (ix2 (outIdx t p q z 0) (outIdx t p q z 1)) := by
  obtain ⟨⟨e0, e1, e2⟩, -, -, -, -, -, -, -, -, -, -, -, -⟩ := idx_facts t
  obtain ⟨o0, o1, -, -⟩ := outIdx_val t p q z
  show V m c main_v0 (((cfg0.win 0).blk t).view.emb (ix3 (0 : Fin 1) p (0 : Fin 1))) = _
  rw [V_main_v0]
  refine broadcastInDim_apply _ bcast_S2x768_S2x768x1_0_1 _ _ _ (fun a => ?_)
  match a with
  | ⟨0, _⟩ =>
    show (outIdx t p q z 0).val = if (2 : Nat) = 1 then 0 else win0_0.index t (0 : Fin 3) * 1 + 1 * 0
    rw [if_neg (by decide), o0]; omega
  | ⟨1, _⟩ =>
    show (outIdx t p q z 1).val = if (768 : Nat) = 1 then 0 else win0_0.index t (1 : Fin 3) * 64 + 1 * p.val
    rw [if_neg (by decide), o1]; omega

/-- Column window 1: entry q of its block at point t is argument 0 at the output entry's batch and column token. -/
theorem blk1 (c : Dev nD) (t : Fin cfg0.N) (p : Fin 64) (q z : Fin 128) :
    iblk m c 1 t (ix3 (0 : Fin 1) (0 : Fin 1) q)
      = m ((c : Thread nD τ).loc main_arg0) (ix2 (outIdx t p q z 0) (outIdx t p q z 2)) := by
  obtain ⟨-, ⟨e0, e1, e2⟩, -, -, -, -, -, -, -, -, -, -, -⟩ := idx_facts t
  obtain ⟨o0, -, o2, -⟩ := outIdx_val t p q z
  show V m c main_v1 (((cfg0.win 1).blk t).view.emb (ix3 (0 : Fin 1) (0 : Fin 1) q)) = _
  rw [V_main_v1]
  refine broadcastInDim_apply _ bcast_S2x768_S2x1x768_0_2 _ _ _ (fun a => ?_)
  match a with
  | ⟨0, _⟩ =>
    show (outIdx t p q z 0).val = if (2 : Nat) = 1 then 0 else win0_1.index t (0 : Fin 3) * 1 + 1 * 0
    rw [if_neg (by decide), o0]; omega
  | ⟨1, _⟩ =>
    show (outIdx t p q z 2).val = if (768 : Nat) = 1 then 0 else win0_1.index t (2 : Fin 3) * 128 + 1 * q.val
    rw [if_neg (by decide), o2]; omega

/-- Row window 2: entry p of its block at point t is argument 1 at the output entry's batch and row token. -/
theorem blk2 (c : Dev nD) (t : Fin cfg0.N) (p : Fin 64) (q z : Fin 128) :
    iblk m c 2 t (ix3 (0 : Fin 1) p (0 : Fin 1))
      = m ((c : Thread nD τ).loc main_arg1) (ix2 (outIdx t p q z 0) (outIdx t p q z 1)) := by
  obtain ⟨-, -, ⟨e0, e1, e2⟩, -, -, -, -, -, -, -, -, -, -⟩ := idx_facts t
  obtain ⟨o0, o1, -, -⟩ := outIdx_val t p q z
  show V m c main_v2 (((cfg0.win 2).blk t).view.emb (ix3 (0 : Fin 1) p (0 : Fin 1))) = _
  rw [V_main_v2]
  refine broadcastInDim_apply _ bcast_S2x768_S2x768x1_0_1 _ _ _ (fun a => ?_)
  match a with
  | ⟨0, _⟩ =>
    show (outIdx t p q z 0).val = if (2 : Nat) = 1 then 0 else win0_2.index t (0 : Fin 3) * 1 + 1 * 0
    rw [if_neg (by decide), o0]; omega
  | ⟨1, _⟩ =>
    show (outIdx t p q z 1).val = if (768 : Nat) = 1 then 0 else win0_2.index t (1 : Fin 3) * 64 + 1 * p.val
    rw [if_neg (by decide), o1]; omega

/-- Column window 3: entry q of its block at point t is argument 1 at the output entry's batch and column token. -/
theorem blk3 (c : Dev nD) (t : Fin cfg0.N) (p : Fin 64) (q z : Fin 128) :
    iblk m c 3 t (ix3 (0 : Fin 1) (0 : Fin 1) q)
      = m ((c : Thread nD τ).loc main_arg1) (ix2 (outIdx t p q z 0) (outIdx t p q z 2)) := by
  obtain ⟨-, -, -, ⟨e0, e1, e2⟩, -, -, -, -, -, -, -, -, -⟩ := idx_facts t
  obtain ⟨o0, -, o2, -⟩ := outIdx_val t p q z
  show V m c main_v3 (((cfg0.win 3).blk t).view.emb (ix3 (0 : Fin 1) (0 : Fin 1) q)) = _
  rw [V_main_v3]
  refine broadcastInDim_apply _ bcast_S2x768_S2x1x768_0_2 _ _ _ (fun a => ?_)
  match a with
  | ⟨0, _⟩ =>
    show (outIdx t p q z 0).val = if (2 : Nat) = 1 then 0 else win0_3.index t (0 : Fin 3) * 1 + 1 * 0
    rw [if_neg (by decide), o0]; omega
  | ⟨1, _⟩ =>
    show (outIdx t p q z 2).val = if (768 : Nat) = 1 then 0 else win0_3.index t (2 : Fin 3) * 128 + 1 * q.val
    rw [if_neg (by decide), o2]; omega

/-- Row window 4: entry p of its block at point t is argument 2 at the output entry's batch and row token. -/
theorem blk4 (c : Dev nD) (t : Fin cfg0.N) (p : Fin 64) (q z : Fin 128) :
    iblk m c 4 t (ix3 (0 : Fin 1) p (0 : Fin 1))
      = m ((c : Thread nD τ).loc main_arg2) (ix2 (outIdx t p q z 0) (outIdx t p q z 1)) := by
  obtain ⟨-, -, -, -, ⟨e0, e1, e2⟩, -, -, -, -, -, -, -, -⟩ := idx_facts t
  obtain ⟨o0, o1, -, -⟩ := outIdx_val t p q z
  show V m c main_v4 (((cfg0.win 4).blk t).view.emb (ix3 (0 : Fin 1) p (0 : Fin 1))) = _
  rw [V_main_v4]
  refine broadcastInDim_apply _ bcast_S2x768_S2x768x1_0_1 _ _ _ (fun a => ?_)
  match a with
  | ⟨0, _⟩ =>
    show (outIdx t p q z 0).val = if (2 : Nat) = 1 then 0 else win0_4.index t (0 : Fin 3) * 1 + 1 * 0
    rw [if_neg (by decide), o0]; omega
  | ⟨1, _⟩ =>
    show (outIdx t p q z 1).val = if (768 : Nat) = 1 then 0 else win0_4.index t (1 : Fin 3) * 64 + 1 * p.val
    rw [if_neg (by decide), o1]; omega

/-- Column window 5: entry q of its block at point t is argument 2 at the output entry's batch and column token. -/
theorem blk5 (c : Dev nD) (t : Fin cfg0.N) (p : Fin 64) (q z : Fin 128) :
    iblk m c 5 t (ix3 (0 : Fin 1) (0 : Fin 1) q)
      = m ((c : Thread nD τ).loc main_arg2) (ix2 (outIdx t p q z 0) (outIdx t p q z 2)) := by
  obtain ⟨-, -, -, -, -, ⟨e0, e1, e2⟩, -, -, -, -, -, -, -⟩ := idx_facts t
  obtain ⟨o0, -, o2, -⟩ := outIdx_val t p q z
  show V m c main_v5 (((cfg0.win 5).blk t).view.emb (ix3 (0 : Fin 1) (0 : Fin 1) q)) = _
  rw [V_main_v5]
  refine broadcastInDim_apply _ bcast_S2x768_S2x1x768_0_2 _ _ _ (fun a => ?_)
  match a with
  | ⟨0, _⟩ =>
    show (outIdx t p q z 0).val = if (2 : Nat) = 1 then 0 else win0_5.index t (0 : Fin 3) * 1 + 1 * 0
    rw [if_neg (by decide), o0]; omega
  | ⟨1, _⟩ =>
    show (outIdx t p q z 2).val = if (768 : Nat) = 1 then 0 else win0_5.index t (2 : Fin 3) * 128 + 1 * q.val
    rw [if_neg (by decide), o2]; omega

/-- Row window 6: entry p of its block at point t is argument 4 at the output entry's batch and row token. -/
theorem blk6 (c : Dev nD) (t : Fin cfg0.N) (p : Fin 64) (q z : Fin 128) :
    iblk m c 6 t (ix3 (0 : Fin 1) p (0 : Fin 1))
      = m ((c : Thread nD τ).loc main_arg4) (ix2 (outIdx t p q z 0) (outIdx t p q z 1)) := by
  obtain ⟨-, -, -, -, -, -, ⟨e0, e1, e2⟩, -, -, -, -, -, -⟩ := idx_facts t
  obtain ⟨o0, o1, -, -⟩ := outIdx_val t p q z
  show V m c main_v6 (((cfg0.win 6).blk t).view.emb (ix3 (0 : Fin 1) p (0 : Fin 1))) = _
  rw [V_main_v6]
  refine broadcastInDim_apply _ bcast_S2x768_S2x768x1_0_1 _ _ _ (fun a => ?_)
  match a with
  | ⟨0, _⟩ =>
    show (outIdx t p q z 0).val = if (2 : Nat) = 1 then 0 else win0_6.index t (0 : Fin 3) * 1 + 1 * 0
    rw [if_neg (by decide), o0]; omega
  | ⟨1, _⟩ =>
    show (outIdx t p q z 1).val = if (768 : Nat) = 1 then 0 else win0_6.index t (1 : Fin 3) * 64 + 1 * p.val
    rw [if_neg (by decide), o1]; omega

/-- Column window 7: entry q of its block at point t is argument 4 at the output entry's batch and column token. -/
theorem blk7 (c : Dev nD) (t : Fin cfg0.N) (p : Fin 64) (q z : Fin 128) :
    iblk m c 7 t (ix3 (0 : Fin 1) (0 : Fin 1) q)
      = m ((c : Thread nD τ).loc main_arg4) (ix2 (outIdx t p q z 0) (outIdx t p q z 2)) := by
  obtain ⟨-, -, -, -, -, -, -, ⟨e0, e1, e2⟩, -, -, -, -, -⟩ := idx_facts t
  obtain ⟨o0, -, o2, -⟩ := outIdx_val t p q z
  show V m c main_v7 (((cfg0.win 7).blk t).view.emb (ix3 (0 : Fin 1) (0 : Fin 1) q)) = _
  rw [V_main_v7]
  refine broadcastInDim_apply _ bcast_S2x768_S2x1x768_0_2 _ _ _ (fun a => ?_)
  match a with
  | ⟨0, _⟩ =>
    show (outIdx t p q z 0).val = if (2 : Nat) = 1 then 0 else win0_7.index t (0 : Fin 3) * 1 + 1 * 0
    rw [if_neg (by decide), o0]; omega
  | ⟨1, _⟩ =>
    show (outIdx t p q z 2).val = if (768 : Nat) = 1 then 0 else win0_7.index t (2 : Fin 3) * 128 + 1 * q.val
    rw [if_neg (by decide), o2]; omega

/-- Row window 8: entry p of its block at point t is argument 5 at the output entry's batch and row token. -/
theorem blk8 (c : Dev nD) (t : Fin cfg0.N) (p : Fin 64) (q z : Fin 128) :
    iblk m c 8 t (ix3 (0 : Fin 1) p (0 : Fin 1))
      = m ((c : Thread nD τ).loc main_arg5) (ix2 (outIdx t p q z 0) (outIdx t p q z 1)) := by
  obtain ⟨-, -, -, -, -, -, -, -, ⟨e0, e1, e2⟩, -, -, -, -⟩ := idx_facts t
  obtain ⟨o0, o1, -, -⟩ := outIdx_val t p q z
  show V m c main_v8 (((cfg0.win 8).blk t).view.emb (ix3 (0 : Fin 1) p (0 : Fin 1))) = _
  rw [V_main_v8]
  refine broadcastInDim_apply _ bcast_S2x768_S2x768x1_0_1 _ _ _ (fun a => ?_)
  match a with
  | ⟨0, _⟩ =>
    show (outIdx t p q z 0).val = if (2 : Nat) = 1 then 0 else win0_8.index t (0 : Fin 3) * 1 + 1 * 0
    rw [if_neg (by decide), o0]; omega
  | ⟨1, _⟩ =>
    show (outIdx t p q z 1).val = if (768 : Nat) = 1 then 0 else win0_8.index t (1 : Fin 3) * 64 + 1 * p.val
    rw [if_neg (by decide), o1]; omega

/-- Column window 9: entry q of its block at point t is argument 5 at the output entry's batch and column token. -/
theorem blk9 (c : Dev nD) (t : Fin cfg0.N) (p : Fin 64) (q z : Fin 128) :
    iblk m c 9 t (ix3 (0 : Fin 1) (0 : Fin 1) q)
      = m ((c : Thread nD τ).loc main_arg5) (ix2 (outIdx t p q z 0) (outIdx t p q z 2)) := by
  obtain ⟨-, -, -, -, -, -, -, -, -, ⟨e0, e1, e2⟩, -, -, -⟩ := idx_facts t
  obtain ⟨o0, -, o2, -⟩ := outIdx_val t p q z
  show V m c main_v9 (((cfg0.win 9).blk t).view.emb (ix3 (0 : Fin 1) (0 : Fin 1) q)) = _
  rw [V_main_v9]
  refine broadcastInDim_apply _ bcast_S2x768_S2x1x768_0_2 _ _ _ (fun a => ?_)
  match a with
  | ⟨0, _⟩ =>
    show (outIdx t p q z 0).val = if (2 : Nat) = 1 then 0 else win0_9.index t (0 : Fin 3) * 1 + 1 * 0
    rw [if_neg (by decide), o0]; omega
  | ⟨1, _⟩ =>
    show (outIdx t p q z 2).val = if (768 : Nat) = 1 then 0 else win0_9.index t (2 : Fin 3) * 128 + 1 * q.val
    rw [if_neg (by decide), o2]; omega

/-- Column window 10: entry q of its block at point t is argument 3 at the output entry's batch and column token. -/
theorem blk10 (c : Dev nD) (t : Fin cfg0.N) (p : Fin 64) (q z : Fin 128) :
    iblk m c 10 t (ix3 (0 : Fin 1) (0 : Fin 1) q)
      = m ((c : Thread nD τ).loc main_arg3) (ix2 (outIdx t p q z 0) (outIdx t p q z 2)) := by
  obtain ⟨-, -, -, -, -, -, -, -, -, -, ⟨e0, e1, e2⟩, -, -⟩ := idx_facts t
  obtain ⟨o0, -, o2, -⟩ := outIdx_val t p q z
  show V m c main_v11 (((cfg0.win 10).blk t).view.emb (ix3 (0 : Fin 1) (0 : Fin 1) q)) = _
  rw [V_main_v11]
  refine broadcastInDim_apply _ bcast_S2x768_S2x1x768_0_2 _ _ _ (fun a => ?_)
  match a with
  | ⟨0, _⟩ =>
    show (outIdx t p q z 0).val = if (2 : Nat) = 1 then 0 else win0_10.index t (0 : Fin 3) * 1 + 1 * 0
    rw [if_neg (by decide), o0]; omega
  | ⟨1, _⟩ =>
    show (outIdx t p q z 2).val = if (768 : Nat) = 1 then 0 else win0_10.index t (2 : Fin 3) * 128 + 1 * q.val
    rw [if_neg (by decide), o2]; omega

/-- The table's one block is the table. -/
theorem blk11 (c : Dev nD) (t : Fin cfg0.N) :
    (iblk m c 11 t : S139x128.Idx → EReal) = m ((c : Thread nD τ).loc main_arg6) := by
  obtain ⟨-, -, -, -, -, -, -, -, -, -, -, ⟨e0, e1⟩, -⟩ := idx_facts t
  funext y
  show V m c main_arg6 (((cfg0.win 11).blk t).view.emb y) = _
  rw [V_main_arg6]
  refine congrArg _ (funext fun a => Fin.ext ?_)
  match a with
  | ⟨0, _⟩ => show win0_11.index t (0 : Fin 2) * 139 + 1 * (y 0).val = (y 0).val; omega
  | ⟨1, _⟩ => show win0_11.index t (1 : Fin 2) * 128 + 1 * (y 1).val = (y 1).val; omega

/-! ## What a point writes back, the cover, the array -/

/-- WHAT POINT `t` WRITES BACK is block `t` of the encoding: the body's result at (0, p, q, z) is the encoding's entry
    of the block entries, and those are the arguments' entries at the output entry's batch, row token and column token. -/
theorem flushed_eq (c : Dev nD) (t : Fin cfg0.N) :
    (dats m 0 c).flushed 12 t = ((cfg0.win 12).blk t).view.read (Elt Ideal) (enc m c) := by
  rw [flushed12_A, out_eq]
  funext j
  obtain ⟨u, p, q, z, rfl⟩ : ∃ (u : Fin 1) (p : Fin 64) (q z : Fin 128), j = ix4 u p q z := ⟨j 0, j 1, j 2, j 3, eq_ix4 j⟩
  obtain rfl : u = 0 := Subsingleton.elim _ _
  show bodyTerm (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix4 (0 : Fin 1) p q z) = enc m c (outIdx t p q z)
  rw [bodyTerm_apply, blk0 m c t p q z, blk1 m c t p q z, blk2 m c t p q z, blk3 m c t p q z, blk4 m c t p q z, blk5 m c t p q z,
    blk6 m c t p q z, blk7 m c t p q z, blk8 m c t p q z, blk9 m c t p q z, blk10 m c t p q z, blk11 m c t]
  have hz : z = outIdx t p q z 3 := Fin.ext (outIdx_val t p q z).2.2.2.symm
  exact congrArg (entryOf _ _ _ _ _ _ _ _ _ _ _ _) hz

/-- An index of the array is in point `t`'s block iff each coordinate is in the block's range on its axis. -/
theorem mem_blk (t : Fin cfg0.N) (i : S2x768x768x128.Idx) :
    i ∈ ((cfg0.win 12).blk t).view.set ↔ ∀ a : Fin 4, win0_12.index t a * S1x64x128x128.size a ≤ (i a).val
      ∧ (i a).val < win0_12.index t a * S1x64x128x128.size a + S1x64x128x128.size a := by
  show i ∈ ((View.whole main_v12).slice (win0_12.rect t)).set ↔ _
  rw [View.set_slice_whole, Rect.mem_set_unit]
  exact Iff.rfl

/-- THE COVER: every entry (b, l, m', z) of the array is in the block of the point at (b, l / 64, m' / 128). -/
theorem cover (i : S2x768x768x128.Idx) :
    ∃ t : Fin cfg0.N, (cfg0.win 12).flush t = true ∧ i ∈ ((cfg0.win 12).blk t).view.set := by
  have hi0 : (i 0).val < 2 := (i 0).isLt
  have hi1 : (i 1).val < 768 := (i 1).isLt
  have hi2 : (i 2).val < 768 := (i 2).isLt
  have hi3 : (i 3).val < 128 := (i 3).isLt
  obtain ⟨t, ht⟩ := idx_onto ⟨(i 0).val, hi0⟩ ⟨(i 1).val / 64, by omega⟩ ⟨(i 2).val / 128, by omega⟩
  have q0 : win0_12.index t (0 : Fin 4) = (i 0).val := congrFun ht 0
  have q1 : win0_12.index t (1 : Fin 4) = (i 1).val / 64 := congrFun ht 1
  have q2 : win0_12.index t (2 : Fin 4) = (i 2).val / 128 := congrFun ht 2
  have q3 : win0_12.index t (3 : Fin 4) = 0 := congrFun ht 3
  refine ⟨t, flush0_12 t, ?_⟩
  rw [mem_blk]
  intro a
  match a with
  | ⟨0, _⟩ => show win0_12.index t (0 : Fin 4) * 1 ≤ (i 0).val ∧ (i 0).val < win0_12.index t (0 : Fin 4) * 1 + 1; omega
  | ⟨1, _⟩ => show win0_12.index t (1 : Fin 4) * 64 ≤ (i 1).val ∧ (i 1).val < win0_12.index t (1 : Fin 4) * 64 + 64; omega
  | ⟨2, _⟩ => show win0_12.index t (2 : Fin 4) * 128 ≤ (i 2).val ∧ (i 2).val < win0_12.index t (2 : Fin 4) * 128 + 128; omega
  | ⟨3, _⟩ => show win0_12.index t (3 : Fin 4) * 128 ≤ (i 3).val ∧ (i 3).val < win0_12.index t (3 : Fin 4) * 128 + 128; omega

/-- THE ARRAY after the run is the encoding of the arguments. -/
theorem final (c : Dev nD) : (dats m 0 c).arrAt 12 cfg0.N = enc m c :=
  (dats m 0 c).arrAt_eq_of_cover 12 (enc m c) (fun t _ => flushed_eq m c t) cover

/-- The kernel's run, read: the result array ends at the encoding of the arguments, the arguments unchanged. -/
theorem run : θ_run defs (onTc (τ := τ) (main (F := Ideal))) ⟨m, fun _ => 0, ρ⟩ fun r => ∀ c : Dev nD,
      r.2.mem ((c : Thread nD τ).loc main_v12) = enc m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.KernelIdeal.Final

end
-- ==== Proof.lean ====
/-
  The certificate of the fused relative-position encoder against its plain reference.

  Both programs compute, for every batch b, row token l, column token m and channel z,

      out[b, l, m, z] = W[dRes, z] + W[66 + dTok, z] + W[133 + dChain, z] + [entity l = entity m] * W[132, z]

  (Proof/Spec.lean: `encoding`). The reference builds the 139-wide one-hot feature vector (residue bin | token bin | same
  entity | chain bin) and contracts it with the table in one product; the kernel never builds it: tile by tile it
  multiplies each group's one-hot by its rows of the table and adds the four results into the output block. A sum over the
  139 features split into its four stretches is the sum of the four group sums (`sum_split139`), addition of extended
  reals being commutative and associative; an indicator is 0 or 1, so nothing here needs the table to be finite and the
  precondition is never opened.

  * The kernel's run ends with the result array at `encoding` of the arguments: Proof/BodyValue.lean (the block after
    the body's four stores is one composed term of the input blocks), Proof/BodyEntry.lean (that term at an index is the
    encoding's entry of the block entries), Proof/Final.lean (blocks to the array: the 2 x 12 x 6 blocks tile it).
  * The reference's run ends with its result at the same function: its run and its read-at-an-index lemmas, then
    Proof/RefValue.lean (the concatenation read stretch by stretch, the product as the split sum).
  * The three frames are the generated frame runs; no operation was rewritten by the idealization, so `preserves` is trivial.
-/
import proofs.«108437_j69999376990394_1_alg».proof.Defs
import proofs.«108437_j69999376990394_1_alg».proof.Proof.Gen.Kernel
import proofs.«108437_j69999376990394_1_alg».proof.Proof.Gen.Kernel.Frame
import proofs.«108437_j69999376990394_1_alg».proof.Proof.Gen.KernelIdeal
import proofs.«108437_j69999376990394_1_alg».proof.Proof.Gen.KernelIdeal.Frame
import proofs.«108437_j69999376990394_1_alg».proof.Proof.Gen.KernelIdeal.Value
import proofs.«108437_j69999376990394_1_alg».proof.Proof.Gen.ReferenceIdeal
import proofs.«108437_j69999376990394_1_alg».proof.Proof.Gen.Pre_finite_inputs
import proofs.«108437_j69999376990394_1_alg».proof.Proof.Spec
import proofs.«108437_j69999376990394_1_alg».proof.Proof.RefRun
import proofs.«108437_j69999376990394_1_alg».proof.Proof.RefRead
import proofs.«108437_j69999376990394_1_alg».proof.Proof.RefValue
import proofs.«108437_j69999376990394_1_alg».proof.Proof.BodyValue
import proofs.«108437_j69999376990394_1_alg».proof.Proof.BodyEntry
import proofs.«108437_j69999376990394_1_alg».proof.Proof.Final
import Idealize.ShloMosaic.Adequacy
import Idealize.ShloMosaic.Init

noncomputable section

namespace Cert.Proof

open Idealize.ShloMosaic Idealize.SL.Sem

/-- The kernel as printed runs and leaves its arguments alone: the generated frame run. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the seven arguments both programs end with the encoding of those arguments. -/
theorem algebraic : Cert.algebraic_KernelIdeal_ReferenceIdeal := by
  intro m ρ m' ρ' _ hagree
  refine ⟨fun c => Cert.KernelIdeal.Final.enc m c, Cert.KernelIdeal.Final.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v62_eq, Cert.RelPos.Ref.ref_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
